-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S1000000 : Shape := ⟨1, ![1000000]⟩
abbrev S16384 : Shape := ⟨1, ![16384]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x4096 .f32) (main_arg1 : FVec F S1000000 .f32) (main_arg2 : IVec S16384 32) (main_arg3 : IVec S16384 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 4096#32
  let main_v13 : IVec S16384 32 := broadcastInDim S16384 ![] bcast_S_S16384 main_c_4
  let main_v14 : IVec S16384 1 := cmpi .slt main_arg2 main_v13
  let main_c_5 : IVec S_ 1 := constantI S_ 1 1#1
  let main_v15 : IVec S_ 1 := (fun x v => Host.reduce IntOp.andi x v reducesTo_S16384_S_d0 h_S_) main_v14 main_c_5
  fn_part1 (F := F) main_v12 main_v15
-- ==== Kernel.lean ====
abbrev S16384x4096 : Shape := ⟨2, ![16384, 4096]⟩
abbrev S1000000 : Shape := ⟨1, ![1000000]⟩
abbrev S16384 : Shape := ⟨1, ![16384]⟩
abbrev S16384x1 : Shape := ⟨2, ![16384, 1]⟩
abbrev S_ : Shape := ⟨0, ![]⟩
abbrev S2x8x128 : Shape := ⟨3, ![2, 8, 128]⟩
abbrev S256x4096 : Shape := ⟨2, ![256, 4096]⟩
abbrev S256x1 : Shape := ⟨2, ![256, 1]⟩
abbrev S1x8x128 : Shape := ⟨3, ![1, 8, 128]⟩
abbrev S1x1 : Shape := ⟨2, ![1, 1]⟩
abbrev S256 : Shape := ⟨1, ![256]⟩
abbrev S1 : Shape := ⟨1, ![1]⟩
abbrev S8x128 : Shape := ⟨2, ![8, 128]⟩
abbrev S2x1x1 : Shape := ⟨3, ![2, 1, 1]⟩
abbrev S2 : Shape := ⟨1, ![2]⟩

abbrev nBuf : Space → Nat
  | .hbm => 55
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S1000000, .f32⟩
  | .hbm, ⟨2, _⟩ => ⟨S16384, .i32⟩
  | .hbm, ⟨3, _⟩ => ⟨S16384, .i32⟩
  | .hbm, ⟨4, _⟩ => ⟨S16384x1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S_, .i1⟩
  | .hbm, ⟨21, _⟩ => ⟨S16384, .i1⟩
  | .hbm, ⟨22, _⟩ => ⟨S16384, .i1⟩
  | .hbm, ⟨23, _⟩ => ⟨S16384, .i1⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S_, .f32⟩
  | .hbm, ⟨28, _⟩ => ⟨S16384, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384, .f32⟩
  | .hbm, ⟨38, _⟩ => ⟨S_, .i32⟩
  | .hbm, ⟨39, _⟩ => ⟨S16384, .i32⟩
  | .hbm, ⟨40, _⟩ => ⟨S16384, .i1⟩
  | .hbm, ⟨41, _⟩ => ⟨S_, .i32⟩
  | .hbm, ⟨42, _⟩ => ⟨S16384, .i32⟩
  | .hbm, ⟨43, _⟩ => ⟨S16384, .i32⟩
  | .hbm, ⟨44, _⟩ => ⟨S16384, .i32⟩
  | .hbm, ⟨45, _⟩ => ⟨S16384x1, .i32⟩
  | .hbm, ⟨46, _⟩ => ⟨S16384, .f32⟩
  | .hbm, ⟨47, _⟩ => ⟨S16384x1, .f32⟩
  | .hbm, ⟨48, _⟩ => ⟨S2x8x128, .f32⟩
  | .hbm, ⟨49, _⟩ => ⟨S2x1x1, .f32⟩
  | .hbm, ⟨50, _⟩ => ⟨S2, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x1, .i32⟩
  | .local _ .vmem, ⟨3, _⟩ => ⟨S256x1, .i32⟩
  | .local _ .vmem, ⟨4, _⟩ => ⟨S256x1, .f32⟩
  | .local _ .vmem, ⟨5, _⟩ => ⟨S256x1, .f32⟩
  | .local _ .vmem, ⟨6, _⟩ => ⟨S1x8x128, .f32⟩
  | .local _ .vmem, ⟨7, _⟩ => ⟨S1x8x128, .f32⟩
  | .local _ .vmem, ⟨8, _⟩ => ⟨S1x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_c_0 : Ref sig .tc := ⟨.hbm, 29, rfl⟩
abbrev main_v3 : Ref sig .tc := ⟨.hbm, 30, rfl⟩
abbrev main_v4 : Ref sig .tc := ⟨.hbm, 31, rfl⟩
abbrev main_c_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_2 : Ref sig .tc := ⟨.hbm, 38, rfl⟩
abbrev main_v10 : Ref sig .tc := ⟨.hbm, 39, rfl⟩
abbrev main_v11 : Ref sig .tc := ⟨.hbm, 40, rfl⟩
abbrev main_c_3 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_cst_4 : Ref sig .tc := ⟨.hbm, 51, rfl⟩
abbrev main_v21 : Ref sig .tc := ⟨.hbm, 52, rfl⟩
abbrev main_cst_5 : Ref sig .tc := ⟨.hbm, 53, rfl⟩
abbrev main_v22 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v33 : BitVec 1 := Scalar.cmpi .eq arg1 c31_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S16384_S16384x1 : S16384.ShapeCasts S16384x1
  bcast_S_S16384 : S_.BroadcastsInDim S16384 (![] : Fin 0 → Fin S16384.rank)
  bcast_S16384_S16384x1_0 : S16384.BroadcastsInDim S16384x1 (![0] : Fin 1 → Fin S16384x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  iota_S256x4096_d1_w32 : S256x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x1_S1 : S256x1.Reduces [0] S1
  shapeCasts_S1_S1x1 : S1.ShapeCasts S1x1
  iota_S8x128_d0_w32 : S8x128.Iotas .tc 32 [0]
  iota_S8x128_d1_w32 : S8x128.Iotas .tc 32 [1]
  broadcasts_S1x1_S8x128 : S1x1.Broadcasts S8x128
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  gather_S1000000_S16384x1_S16384_n_0_n_n_0_1_1_wf : GatherDims.WF S1000000 S16384x1 S16384 [] [0] [] [0] [] 1 ![1]
  scatter_S16384_S16384x1_S16384_n_0_0_1_wf : ScatterDims.WF S16384 S16384x1 S16384 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def gather_S1000000_S16384x1_S16384_n_0_n_n_0_1_1 : GatherDims S1000000 S16384x1 S16384 where
  offsetDims := []
  collapsedSliceDims := [0]
  operandBatchingDims := []
  startIndicesBatchingDims := []
  startIndexMap := [0]
  indexVectorDim := 1
  sliceSizes := ![1]
  wf := gather_S1000000_S16384x1_S16384_n_0_n_n_0_1_1_wf
def scatter_S16384_S16384x1_S16384_n_0_0_1 : ScatterDims S16384 S16384x1 S16384 where
  updateWindowDims := []
  insertedWindowDims := [0]
  scatterDimsToOperandDims := [0]
  indexVectorDim := 1
  wf := scatter_S16384_S16384x1_S16384_n_0_0_1_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S1000000 : Shape := ⟨1, ![1000000]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1000000, .f32⟩
  | .hbm, ⟨2, _⟩ => ⟨S16384, .i32⟩
  | .hbm, ⟨3, _⟩ => ⟨S16384, .i32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S_, .i32⟩
  | .hbm, ⟨24, _⟩ => ⟨S16384x1, .i32⟩
  | .hbm, ⟨25, _⟩ => ⟨S16384x1, .i32⟩
  | .hbm, ⟨26, _⟩ => ⟨S16384x1, .i32⟩
  | .hbm, ⟨27, _⟩ => ⟨S16384x1x1, .i32⟩
  | .hbm, ⟨28, _⟩ => ⟨S1, .i32⟩
  | .hbm, ⟨29, _⟩ => ⟨S_, .i32⟩
  | .hbm, ⟨30, _⟩ => ⟨S16384x1x1, .i32⟩
  | .hbm, ⟨31, _⟩ => ⟨S16384x1x1, .i1⟩
  | .hbm, ⟨32, _⟩ => ⟨S1x1x1, .i32⟩
  | .hbm, ⟨33, _⟩ => ⟨S16384x1x1, .i32⟩
  | .hbm, ⟨34, _⟩ => ⟨S16384x1x1, .i1⟩
  | .hbm, ⟨35, _⟩ => ⟨S16384x1x1, .i1⟩
  | .hbm, ⟨36, _⟩ => ⟨S_, .i1⟩
  | .hbm, ⟨37, _⟩ => ⟨S16384x1, .i1⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384, .f32⟩
  | .hbm, ⟨43, _⟩ => ⟨S16384, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i1⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S_, .i32⟩
  | .hbm, ⟨59, _⟩ => ⟨S_, .i1⟩
  | .hbm, ⟨60, _⟩ => ⟨S16384, .i1⟩
  | .hbm, ⟨61, _⟩ => ⟨S16384, .i1⟩
  | .hbm, ⟨62, _⟩ => ⟨S16384, .i1⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S_, .f32⟩
  | .hbm, ⟨67, _⟩ => ⟨S16384, .f32⟩
  | .hbm, ⟨68, _⟩ => ⟨S_, .i32⟩
  | .hbm, ⟨69, _⟩ => ⟨S16384, .i32⟩
  | .hbm, ⟨70, _⟩ => ⟨S16384, .i1⟩
  | .hbm, ⟨71, _⟩ => ⟨S_, .i32⟩
  | .hbm, ⟨72, _⟩ => ⟨S16384, .i32⟩
  | .hbm, ⟨73, _⟩ => ⟨S16384, .i32⟩
  | .hbm, ⟨74, _⟩ => ⟨S16384, .i32⟩
  | .hbm, ⟨75, _⟩ => ⟨S16384x1, .i32⟩
  | .hbm, ⟨76, _⟩ => ⟨S16384, .f32⟩
  | .hbm, ⟨77, _⟩ => ⟨S_, .i32⟩
  | .hbm, ⟨78, _⟩ => ⟨S16384, .i32⟩
  | .hbm, ⟨79, _⟩ => ⟨S16384, .i1⟩
  | .hbm, ⟨80, _⟩ => ⟨S_, .i32⟩
  | .hbm, ⟨81, _⟩ => ⟨S16384, .i32⟩
  | .hbm, ⟨82, _⟩ => ⟨S16384, .i32⟩
  | .hbm, ⟨83, _⟩ => ⟨S16384, .i32⟩
  | .hbm, ⟨84, _⟩ => ⟨S16384x1, .i32⟩
  | .hbm, ⟨85, _⟩ => ⟨S16384, .f32⟩
  | .hbm, ⟨86, _⟩ => ⟨S16384, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_c : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_c_1 : Ref sig .tc := ⟨.hbm, 52, rfl⟩
abbrev main_call2_v5 : Ref sig .tc := ⟨.hbm, 53, rfl⟩
abbrev main_call2_v6 : Ref sig .tc := ⟨.hbm, 54, rfl⟩
abbrev main_call2_c_2 : Ref sig .tc := ⟨.hbm, 55, rfl⟩
abbrev main_call2_v7 : Ref sig .tc := ⟨.hbm, 56, rfl⟩
abbrev main_call2_v8 : Ref sig .tc := ⟨.hbm, 57, rfl⟩
abbrev main_call2_c_3 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_v12 : Ref sig .tc := ⟨.hbm, 62, rfl⟩
abbrev main_call2_v13 : Ref sig .tc := ⟨.hbm, 63, rfl⟩
abbrev main_call2_v14 : Ref sig .tc := ⟨.hbm, 64, rfl⟩
abbrev main_v5 : Ref sig .tc := ⟨.hbm, 65, rfl⟩
abbrev main_cst : Ref sig .tc := ⟨.hbm, 66, rfl⟩
abbrev main_v6 : Ref sig .tc := ⟨.hbm, 67, rfl⟩
abbrev main_c_0 : Ref sig .tc := ⟨.hbm, 68, rfl⟩
abbrev main_v7 : Ref sig .tc := ⟨.hbm, 69, rfl⟩
abbrev main_v8 : Ref sig .tc := ⟨.hbm, 70, rfl⟩
abbrev main_c_1 : Ref sig .tc := ⟨.hbm, 71, rfl⟩
abbrev main_v9 : Ref sig .tc := ⟨.hbm, 72, rfl⟩
abbrev main_v10 : Ref sig .tc := ⟨.hbm, 73, rfl⟩
abbrev main_v11 : Ref sig .tc := ⟨.hbm, 74, rfl⟩
abbrev main_v12 : Ref sig .tc := ⟨.hbm, 75, rfl⟩
abbrev main_v13 : Ref sig .tc := ⟨.hbm, 76, rfl⟩
abbrev main_c_2 : Ref sig .tc := ⟨.hbm, 77, rfl⟩
abbrev main_v14 : Ref sig .tc := ⟨.hbm, 78, rfl⟩
abbrev main_v15 : Ref sig .tc := ⟨.hbm, 79, rfl⟩
abbrev main_c_3 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_cst_4 : Ref sig .tc := ⟨.hbm, 87, rfl⟩
abbrev main_v22 : Ref sig .tc := ⟨.hbm, 88, rfl⟩
abbrev main_cst_5 : Ref sig .tc := ⟨.hbm, 89, rfl⟩
abbrev main_v23 : Ref sig .tc := ⟨.hbm, 90, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  gather_S16384x4096_S16384x1x1_S16384x1_n_1_0_0_1_2_11_wf : GatherDims.WF S16384x4096 S16384x1x1 S16384x1 [] [1] [0] [1] [0] 2 ![1, 1]
  gather_S1000000_S16384x1_S16384_n_0_n_n_0_1_1_wf : GatherDims.WF S1000000 S16384x1 S16384 [] [0] [] [0] [] 1 ![1]
  scatter_S16384_S16384x1_S16384_n_0_0_1_wf : ScatterDims.WF S16384 S16384x1 S16384 [] [0] [0] 1

variable [Facts₀]

def gather_S16384x4096_S16384x1x1_S16384x1_n_1_0_0_1_2_11 : GatherDims S16384x4096 S16384x1x1 S16384x1 where
  offsetDims := []
  collapsedSliceDims := [1]
  operandBatchingDims := [0]
  startIndicesBatchingDims := [0]
  startIndexMap := [1]
  indexVectorDim := 2
  sliceSizes := ![1, 1]
  wf := gather_S16384x4096_S16384x1x1_S16384x1_n_1_0_0_1_2_11_wf
def gather_S1000000_S16384x1_S16384_n_0_n_n_0_1_1 : GatherDims S1000000 S16384x1 S16384 where
  offsetDims := []
  collapsedSliceDims := [0]
  operandBatchingDims := []
  startIndicesBatchingDims := []
  startIndexMap := [0]
  indexVectorDim := 1
  sliceSizes := ![1]
  wf := gather_S1000000_S16384x1_S16384_n_0_n_n_0_1_1_wf
def scatter_S16384_S16384x1_S16384_n_0_0_1 : ScatterDims S16384 S16384x1 S16384 where
  updateWindowDims := []
  insertedWindowDims := [0]
  scatterDimsToOperandDims := [0]
  indexVectorDim := 1
  wf := scatter_S16384_S16384x1_S16384_n_0_0_1_wf

class Facts : Prop extends Facts₀ where

variable [Facts]
-- ==== Proof.KernelPieces.lean ====
/-
  What one run of the kernel body leaves behind, case by case, as values of the body's stored terms.
  The body keeps a one-entry running sum in a scratch cell. At the first block of a group it stores zero
  and then adds the block's partial sum to what it reads back (so the cell holds 0 + partial); at every
  later block it adds the partial sum to what the block before left; at the last block of a group it also
  writes the output block: the cell's new contents at entry (0,0,0) of an otherwise zero block.
  Each lemma reads the covering store's value: a store of a whole buffer at offset zero leaves its value,
  and a load of a whole buffer after such a store reads that value back.
-/
import proofs.«427596_j76922864272129_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First block of a group: the cell ends at the update of the zero it has just been reset to. -/
theorem sout_A (c : Dev nD) (i : grid0.Coords) (arg2 : Memref sig .tc .vmem S256x4096 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S1x8x128 .f32) (harg5 : arg5.IsWhole) (arg6 : Memref sig .tc .vmem S1x1 .f32) (harg6 : arg6.IsWhole) (hc0 : cond0_0 i) (hc1 : ¬cond0_1 i)
    (x0 : Vec F S256x4096 .f32) (x1 : Vec F S256x1 .i32) (x2 : Vec F S256x1 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg6.read_unread, View.ld_unit_zero (S := S256x4096) hz2, View.ld_unit_zero (S := S256x1) hz2, View.ld_unit_zero (S := S1x1) hz2]

/-- A block that is neither first nor last: the cell ends at the update of what the block before left. -/
theorem sout_B (c : Dev nD) (i : grid0.Coords) (arg2 : Memref sig .tc .vmem S256x4096 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : ¬cond0_1 i)
    (x0 : Vec F S256x4096 .f32) (x1 : Vec F S256x1 .i32) (x2 : Vec F S256x1 .f32) (xs0 : Vec F S1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz2]
  simp only [View.readAt_eq_ld, harg2.read_unread, harg3.read_unread, harg4.read_unread, harg6.read_unread, View.ld_unit_zero (S := S256x4096) hz2, View.ld_unit_zero (S := S256x1) hz2, View.ld_unit_zero (S := S1x1) hz2]

/-- Last block of a group: the cell, likewise. -/
theorem sout_C (c : Dev nD) (i : grid0.Coords) (arg2 : Memref sig .tc .vmem S256x4096 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x1 .i32) (x2 : Vec F S256x1 .f32) (xs0 : Vec F S1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S256x4096) hz2, View.ld_unit_zero (S := S256x1) hz2, View.ld_unit_zero (S := S1x1) hz2]

/-- Last block of a group: the output block is built from the cell's new contents. -/
theorem out_C (c : Dev nD) (i : grid0.Coords) (arg2 : Memref sig .tc .vmem S256x4096 .f32) (harg2 : arg2.IsWhole) (arg3 : Memref sig .tc .vmem S256x1 .i32) (harg3 : arg3.IsWhole) (arg4 : Memref sig .tc .vmem S256x1 .f32) (harg4 : arg4.IsWhole) (arg5 : Memref sig .tc .vmem S1x8x128 .f32) (harg5 : arg5.IsWhole) (arg6 : Memref sig .tc .vmem S1x1 .f32) (harg6 : arg6.IsWhole) (hc0 : ¬cond0_0 i) (hc1 : cond0_1 i)
    (x0 : Vec F S256x4096 .f32) (x1 : Vec F S256x1 .i32) (x2 : Vec F S256x1 .f32) (xs0 : Vec F S1x1 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg6.read_unread, View.ld_unit_zero (S := S256x4096) hz2, View.ld_unit_zero (S := S256x1) hz2, View.ld_unit_zero (S := S1x1) hz2]

end Cert.KernelIdeal.Pieces

end
-- ==== Proof.Spec.lean ====
/-
  The specification. Both programs compute the weighted mean of a per-row cross-entropy:
  for a row `x` of 4096 class scores and a label `t`, with `M = max_j x_j` and
  `L = log (sum_j exp (x_j - M))`, the row's loss is `(M + L) - x_t`. The kernel spells it
  `(M + L) - sum_j [j = t] x_j` (a one-hot mask of the label, summed); the reference spells it
  `-((x_t - M) - L)` (log-softmax read at the label, negated). This module names the two
  spellings as functions of ONE row, over the extended reals; it imports no program.
-/
import Idealize.ShloMosaic.PureOps.Ideal

noncomputable section

namespace Cert.Spec

open Idealize.ShloMosaic

/-- A row's maximum: the fold of `max` from minus infinity over the 4096 classes. -/
def rowMax (row : Fin 4096 → EReal) : EReal := (Finset.univ : Finset (Fin 4096)).fold max ⊥ row

/-- The logarithm of the sum of the shifted exponentials, `log (sum_j exp (x_j - M))`. -/
def rowLogSum (row : Fin 4096 → EReal) : EReal := Ideal.log (∑ j : Fin 4096, Ideal.exp (row j - rowMax row))

/-- The kernel's spelling of a row's loss: `(M + L)` less the masked sum that picks the label's score
    (class `j` is picked when the word `j` equals the label word `t`). -/
def lossK (row : Fin 4096 → EReal) (t : BitVec 32) : EReal :=
  (rowMax row + rowLogSum row) - ∑ j : Fin 4096, (if BitVec.ofNat 32 j.val = t then row j else 0)

/-- The reference's spelling: log-softmax at the label's class, negated. -/
def lossR (row : Fin 4096 → EReal) (t : Fin 4096) : EReal := -((row t - rowMax row) - rowLogSum row)

/-- Row `r` of block `t` of group `g` (two groups of 32 blocks of 256 rows) in the whole batch. -/
def blockRow (g : Fin 2) (t : Fin 32) (r : Fin 256) : Fin 16384 :=
  ⟨(g.val * 32 + t.val) * 256 + r.val, by have := g.isLt; have := t.isLt; have := r.isLt; omega⟩

end Cert.Spec

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.PayValue.lean ====
/-
  The kernel body's three stored values, read at an index over the extended reals.
-/
import proofs.«427596_j76922864272129_2_alg».proof.Proof.Gen.KernelIdeal.Skeleton
import proofs.«427596_j76922864272129_2_alg».proof.Proof.Spec
import proofs.«427596_j76922864272129_2_alg».proof.Proof.LibColumns
import Idealize.ShloMosaic.Lib.ValueIdx
import Idealize.ShloMosaic.Lib.Pipeline.Value
import Idealize.ShloMosaic.PureOps.Ideal.Laws

noncomputable section

namespace Cert.KernelIdeal.PayValue

open Idealize.ShloMosaic Idealize.ShloMosaic.ValueIdx Cert.KernelIdeal Cert.KernelIdeal.Gen

/-! ## Words: the label test at one class -/

/-- A select on the bit of a word equality is the `if` on that equality. -/
theorem select_cmpi_eq {α : Type} (a b : BitVec 32) (x y : α) :
    Scalar.select (IntOp.cmpi .eq a b) x y = if a = b then x else y := by
  by_cases h : a = b
  · subst h
    rw [if_pos rfl]
    have e : IntOp.cmpi .eq a a = 1#1 := by simp [IntOp.cmpi]
    rw [e]; exact select_one x y
  · rw [if_neg h]
    have e : IntOp.cmpi .eq a b = 0#1 := by simp [IntOp.cmpi, beq_eq_false_iff_ne.mpr h]
    rw [e]; exact select_zero x y

/-- A number below 4096 is the zero word exactly when it is zero. -/
theorem ofNat_eq_zero_iff (n : Nat) (hn : n < 4096) : BitVec.ofNat 32 n = 0#32 ↔ n = 0 := by
  constructor
  · intro h
    have := congrArg BitVec.toNat h
    simp only [BitVec.toNat_ofNat] at this
    omega
  · rintro rfl; rfl

/-- A select on the conjunction of two "is the zero word" bits of small numbers is the `if` on both being zero. -/
theorem select_both_zero {α : Type} (m n : Nat) (hm : m < 4096) (hn : n < 4096) (A B : α) :
    Scalar.select (IntOp.andi (IntOp.cmpi .eq (BitVec.ofNat 32 m) 0#32) (IntOp.cmpi .eq (BitVec.ofNat 32 n) 0#32)) A B
      = if m = 0 ∧ n = 0 then A else B := by
  have e1 : ∀ a : BitVec 32, IntOp.cmpi .eq a a = 1#1 := fun a => by simp [IntOp.cmpi]
  have e0 : ∀ a b : BitVec 32, a ≠ b → IntOp.cmpi .eq a b = 0#1 := fun a b h => by
    simp [IntOp.cmpi, beq_eq_false_iff_ne.mpr h]
  by_cases h1 : m = 0
  · by_cases h2 : n = 0
    · subst h1; subst h2
      rw [if_pos ⟨rfl, rfl⟩, e1]
      exact select_one A B
    · rw [if_neg (fun h => h2 h.2), e0 _ _ (fun h => h2 ((ofNat_eq_zero_iff n hn).mp h))]
      show Scalar.select (_ &&& 0#1) A B = B
      rw [BitVec.and_zero]
      exact select_zero A B
  · rw [if_neg (fun h => h1 h.1), e0 _ _ (fun h => h1 ((ofNat_eq_zero_iff m hm).mp h))]
    show Scalar.select (0#1 &&& _) A B = B
    rw [BitVec.zero_and]
    exact select_zero A B

/-! ## The exponential and the logarithm at an index -/

theorem cmpi_apply {s : Shape} {w : Nat} (p : CmpIPredicate) (a b : IVec s w) (i : s.Idx) :
    cmpi p a b i = IntOp.cmpi p (a i) (b i) := rfl
theorem andi_apply {s : Shape} {w : Nat} (a b : IVec s w) (i : s.Idx) : andi a b i = IntOp.andi (a i) (b i) := rfl
theorem exp_apply {s : Shape} {φ : FTy} (v : FVec Ideal s φ) (i : s.Idx) : exp v i = Ideal.exp (v i) := rfl
theorem log_apply {s : Shape} {φ : FTy} (v : FVec Ideal s φ) (i : s.Idx) : log v i = Ideal.log (v i) := rfl

/-- The pattern of minus infinity is the bottom of the extended reals. -/
theorem ofBits_neg_inf : Ideal.ofBits .f32 0xFF800000#32 = ⊥ := by simp [Ideal.ofBits, Ideal.ieee]

/-! ## The layout operations of the body, at coordinates -/

/-- A vector of 256 entries cast to one column reads its entry at the row. -/
theorem colCast_apply {α : Type} (v : S256.Idx → α) (r : Fin 256) (u : Fin 1) :
    shapeCast S256x1 v shapeCasts_S256_S256x1 (ix2 r u) = v (ix1 r) :=
  Cert.Lib.Columns.shapeCast_a_a1_apply v shapeCasts_S256_S256x1 r u

/-- One column laid along the 4096 classes reads the column at the row. -/
theorem rowBcast_apply {α : Type} (v : S256x1.Idx → α) (r : Fin 256) (j : Fin 4096) :
    broadcastTo S256x4096 v broadcasts_S256x1_S256x4096 (ix2 r j) = v (ix2 r (0 : Fin 1)) :=
  Cert.Lib.Columns.broadcastTo_a1_ab_apply v broadcasts_S256x1_S256x4096 r j

/-- A vector of one entry cast to a 1 × 1 matrix reads that entry. -/
theorem unitCast_apply {α : Type} (v : S1.Idx → α) (i u : Fin 1) :
    shapeCast S1x1 v shapeCasts_S1_S1x1 (ix2 i u) = v (ix1 i) :=
  Cert.Lib.Columns.shapeCast_a_a1_apply v shapeCasts_S1_S1x1 i u

/-- The class iota reads the class number. -/
theorem classIota_apply (r : Fin 256) (j : Fin 4096) :
    iota .tc S256x4096 32 [1] iota_S256x4096_d1_w32 (ix2 r j) = BitVec.ofNat 32 j.val :=
  iota_single_apply .tc S256x4096 32 1 iota_S256x4096_d1_w32 (ix2 r j)

/-- An 8 × 128 tile given a leading unit axis reads the tile at its two trailing coordinates. -/
theorem tileCast_apply {α : Type} (w : S8x128.Idx → α) (a : Fin 1) (p : Fin 8) (q : Fin 128) :
    shapeCast S1x8x128 w shapeCasts_S8x128_S1x8x128 (ix3 a p q) = w (ix2 p q) := by
  refine (shapeCast_addUnit_apply ![8, 128] w shapeCasts_S8x128_S1x8x128 (ix3 a p q)).trans ?_
  exact congrArg w (funext fun b => match b with | ⟨0, _⟩ => rfl | ⟨1, _⟩ => rfl)

/-- A 1 × 1 matrix laid over an 8 × 128 tile reads its one entry everywhere. -/
theorem tileBcast_apply {α : Type} (w : S1x1.Idx → α) (p : Fin 8) (q : Fin 128) :
    broadcastTo S8x128 w broadcasts_S1x1_S8x128 (ix2 p q) = w (ix2 (0 : Fin 1) (0 : Fin 1)) := by
  refine broadcastTo_apply w broadcasts_S1x1_S8x128 (ix2 p q) (ix2 (0 : Fin 1) (0 : Fin 1)) fun ax => ?_
  match ax with
  | ⟨0, _⟩ => rfl
  | ⟨1, _⟩ => rfl

/-- The tile's row iota reads the row number. -/
theorem tileRowIota_apply (p : Fin 8) (q : Fin 128) :
    iota .tc S8x128 32 [0] iota_S8x128_d0_w32 (ix2 p q) = BitVec.ofNat 32 p.val :=
  iota_single_apply .tc S8x128 32 0 iota_S8x128_d0_w32 (ix2 p q)

/-- The tile's column iota reads the column number. -/
theorem tileColIota_apply (p : Fin 8) (q : Fin 128) :
    iota .tc S8x128 32 [1] iota_S8x128_d1_w32 (ix2 p q) = BitVec.ofNat 32 q.val :=
  iota_single_apply .tc S8x128 32 1 iota_S8x128_d1_w32 (ix2 p q)

/-! ## The three reductions of the body, at coordinates -/

/-- The index a class reduction inserts at row `r`, class `j`. -/
theorem lift_row (r : Fin 256) (j : Fin 4096) :
    reduces_S256x4096_S256.lift (ix1 r) j = ix2 r j :=
  funext fun ax => match ax with
    | ⟨0, _⟩ => Fin.ext rfl
    | ⟨1, _⟩ => Fin.ext rfl

/-- The index the row reduction inserts at row `r`. -/
theorem lift_col (i : Fin 1) (r : Fin 256) :
    reduces_S256x1_S1.lift (ix1 i) r = ix2 r (0 : Fin 1) :=
  funext fun ax => match ax with
    | ⟨0, _⟩ => Fin.ext rfl
    | ⟨1, _⟩ => Fin.ext (by show i.val = 0; omega)

/-- The maximum over the classes, at a row: the fold of `max` from minus infinity over the row. -/
theorem rowMax_apply (x : FVec Ideal S256x4096 .f32) (hφ : FKind.Formats .f32)
    (hacc : (0xFF800000#32 : BitVec 32) = 0xFF800000#32) (r : Fin 256) :
    multiReduction .maximumf [1] S256 x 0xFF800000#32 reduces_S256x4096_S256 hφ hacc (ix1 r)
      = Cert.Spec.rowMax (fun j => x (ix2 r j)) := by
  refine (Ideal.multiReduction_maximumf_single x 0xFF800000#32 reduces_S256x4096_S256 hφ hacc (ix1 r)).trans ?_
  have hf : (x ∘ reduces_S256x4096_S256.lift (ix1 r)) = fun j : Fin 4096 => x (ix2 r j) :=
    funext fun j => congrArg x (lift_row r j)
  unfold Cert.Spec.rowMax
  rw [hf]
  show (Finset.univ : Finset (Fin 4096)).fold max (Ideal.ofBits .f32 0xFF800000#32) _ = _
  rw [ofBits_neg_inf]

/-- The sum over the classes, at a row. -/
theorem rowSum_apply (x : FVec Ideal S256x4096 .f32) (hφ : FKind.Formats .f32)
    (hacc : (0x00000000#32 : BitVec 32) = 0x00000000#32) (r : Fin 256) :
    multiReduction .add [1] S256 x 0x00000000#32 reduces_S256x4096_S256 hφ hacc (ix1 r)
      = ∑ j : Fin 4096, x (ix2 r j) := by
  refine (Ideal.multiReduction_add_single x 0x00000000#32 reduces_S256x4096_S256 hφ hacc (ix1 r)).trans ?_
  exact Finset.sum_congr rfl fun j _ => congrArg x (lift_row r j)

/-- The sum over the rows of one column. -/
theorem colSum_apply (x : FVec Ideal S256x1 .f32) (hφ : FKind.Formats .f32)
    (hacc : (0x00000000#32 : BitVec 32) = 0x00000000#32) (i : Fin 1) :
    multiReduction .add [0] S1 x 0x00000000#32 reduces_S256x1_S1 hφ hacc (ix1 i)
      = ∑ r : Fin 256, x (ix2 r (0 : Fin 1)) := by
  refine (Ideal.multiReduction_add_single x 0x00000000#32 reduces_S256x1_S1 hφ hacc (ix1 i)).trans ?_
  exact Finset.sum_congr rfl fun r _ => congrArg x (lift_col i r)

/-! ## The three stored values -/

/-- The reset stores zero. -/
theorem pay1_apply (y : S1x1.Idx) : (k0_pay1 (F := Ideal)) y = 0 := by
  unfold k0_pay1
  simp only [shapeCast_self]
  exact Ideal.ofBits_zero_f32

/-- The accumulation stores the scratch plus the block's weighted losses summed over its 256 rows. -/
theorem pay2_apply (x0 : Vec Ideal S256x4096 .f32) (x1 : Vec Ideal S256x1 .i32) (x2 : Vec Ideal S256x1 .f32)
    (xs : Vec Ideal S1x1 .f32) (y : S1x1.Idx) :
    k0_pay2 (F := Ideal) x0 x1 x2 xs y
      = xs y + ∑ r : Fin 256, Cert.Spec.lossK (fun j => x0 (ix2 r j)) (x1 (ix2 r 0)) * x2 (ix2 r 0) := by
  obtain ⟨i, u, rfl⟩ : ∃ (i : Fin 1) (u : Fin 1), y = ix2 i u := ⟨y 0, y 1, eq_ix2 y⟩
  unfold k0_pay2
  simp only [shapeCast_self, addf_apply, unitCast_apply]
  refine congrArg (xs (ix2 i u) + ·) ?_
  refine (colSum_apply _ _ _ i).trans ?_
  refine Finset.sum_congr rfl fun r _ => ?_
  rw [mulf_apply, subf_apply, addf_apply, log_apply, colCast_apply, colCast_apply, colCast_apply]
  rw [rowMax_apply, rowSum_apply, rowSum_apply]
  unfold Cert.Spec.lossK Cert.Spec.rowLogSum
  refine congrArg (· * x2 (ix2 r 0)) ?_
  refine congrArg₂ (· - ·)
    (congrArg (fun z => Cert.Spec.rowMax (fun j => x0 (ix2 r j)) + Ideal.log z) (Finset.sum_congr rfl fun j _ => ?_))
    (Finset.sum_congr rfl fun j _ => ?_)
  · -- the shifted exponential at class j
    rw [exp_apply, subf_apply, rowBcast_apply, colCast_apply, rowMax_apply]
  · -- the masked score at class j
    rw [select_apply, cmpi_apply, classIota_apply, rowBcast_apply, broadcast_apply, select_cmpi_eq,
      Ideal.ofBits_def, Ideal.ofBits_zero_f32]

/-- The output block holds the scratch at its first entry and zero elsewhere. -/
theorem pay3_apply (v : Vec Ideal S1x1 .f32) (a : Fin 1) (p : Fin 8) (q : Fin 128) :
    k0_pay3 (F := Ideal) v (ix3 a p q) = if p.val = 0 ∧ q.val = 0 then v (ix2 0 0) else 0 := by
  unfold k0_pay3
  refine (tileCast_apply _ a p q).trans ?_
  rw [select_apply, andi_apply, cmpi_apply, cmpi_apply, tileRowIota_apply, tileColIota_apply, broadcast_apply,
    broadcast_apply, tileBcast_apply, shapeCast_self, Ideal.ofBits_def, Ideal.ofBits_zero_f32]
  exact select_both_zero p.val q.val (by have := p.isLt; omega) (by have := q.isLt; omega) _ _

end Cert.KernelIdeal.PayValue

end
-- ==== Proof.KernelAcc.lean ====
/-
  The running sum across the grid. The grid has 64 points, two groups of 32 blocks; point n reads
  block n of the rows. After point n the scratch cell holds the sum of the partial sums of the blocks of
  n's group up to n: the first point of a group starts from zero, every later point adds its block's
  partial sum to what the point before left. By induction on the point. At the last point of a group the
  output block is the cell's contents placed at the block's first entry.
-/
import proofs.«427596_j76922864272129_2_alg».proof.Proof.KernelPieces
import proofs.«427596_j76922864272129_2_alg».proof.Proof.PayValue
import proofs.«427596_j76922864272129_2_alg».proof.Proof.Spec
import Idealize.ShloMosaic.Lib.ValueIdx

noncomputable section

namespace Cert.KernelIdeal.Acc

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The three input blocks of point `t`, at their literal types: 256 rows of scores, labels, weights. -/
abbrev xblk (c : Dev nD) (t : Fin cfg0.N) : Vec Ideal S256x4096 .f32 := iblk m c 0 t
abbrev tblk (c : Dev nD) (t : Fin cfg0.N) : Vec Ideal S256x1 .i32 := iblk m c 1 t
abbrev wblk (c : Dev nD) (t : Fin cfg0.N) : Vec Ideal S256x1 .f32 := iblk m c 2 t

/-- Block `t`'s partial sum: its rows' losses, each times the row's weight. -/
def part (c : Dev nD) (t : Fin cfg0.N) : EReal :=
  ∑ r : Fin 256, Cert.Spec.lossK (fun j => xblk m c t (ix2 r j)) (tblk m c t (ix2 r 0)) * wblk m c t (ix2 r 0)

/-- The same at a natural number (zero past the grid). -/
def partN (c : Dev nD) (n : ℕ) : EReal := if h : n < cfg0.N then part m c ⟨n, h⟩ else 0

theorem partN_of_lt (c : Dev nD) (n : ℕ) (h : n < cfg0.N) : partN m c n = part m c ⟨n, h⟩ := dif_pos h

/-- At the first point of a group the cell ends at that block's partial sum. -/
theorem cell_first (c : Dev nD) (t : Fin cfg0.N) (h0 : t.val % 32 = 0) (y : S1x1.Idx) :
    (outsAt0 m c t.val t.isLt).2 y = part m c t := by
  have h1 : ¬t.val % 32 = 31 := by omega
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) y).trans ?_
  refine (PayValue.pay2_apply (xblk m c t) (tblk m c t) (wblk m c t) (k0_pay1 (F := Ideal)) y).trans ?_
  rw [PayValue.pay1_apply, zero_add]
  rfl

/-- At any later point it ends at what the point before left plus the block's partial sum. -/
theorem cell_later (c : Dev nD) (t : Fin cfg0.N) (h0 : ¬t.val % 32 = 0) (y : S1x1.Idx) :
    (outsAt0 m c t.val t.isLt).2 y = (outsAt0 m c (t.val - 1) (Nat.lt_of_le_of_lt (Nat.sub_le _ _) t.isLt)).2 y + part m c t := by
  by_cases h1 : t.val % 32 = 31
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) y).trans ?_
    exact PayValue.pay2_apply (xblk m c t) (tblk m c t) (wblk m c t) (outsAt0 m c (t.val - 1) (Nat.lt_of_le_of_lt (Nat.sub_le _ _) t.isLt)).2 y
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) y).trans ?_
    exact PayValue.pay2_apply (xblk m c t) (tblk m c t) (wblk m c t) (outsAt0 m c (t.val - 1) (Nat.lt_of_le_of_lt (Nat.sub_le _ _) t.isLt)).2 y

/-- After point `n` the cell holds the partial sums of `n`'s group from its first block up to `n`. -/
theorem cell_eq (c : Dev nD) : ∀ (n : ℕ) (hn : n < cfg0.N) (y : S1x1.Idx),
    (outsAt0 m c n hn).2 y = ∑ k ∈ Finset.range (n % 32 + 1), partN m c (n - n % 32 + k)
  | 0, hn, y => by
    refine (cell_first m c ⟨0, hn⟩ rfl y).trans ?_
    simp [partN_of_lt m c 0 hn]
  | n + 1, hn, y => by
    by_cases h0 : (n + 1) % 32 = 0
    · refine (cell_first m c ⟨n + 1, hn⟩ h0 y).trans ?_
      rw [h0]
      simp [partN_of_lt m c (n + 1) hn]
    · refine (cell_later m c ⟨n + 1, hn⟩ h0 y).trans ?_
      show (outsAt0 m c n _).2 y + part m c ⟨n + 1, hn⟩ = _
      rw [cell_eq c n _ y]
      have e1 : (n + 1) % 32 = n % 32 + 1 := by omega
      have e2 : n + 1 - (n % 32 + 1) = n - n % 32 := by omega
      have e3 : n - n % 32 + (n % 32 + 1) = n + 1 := by omega
      rw [e1, e2, Finset.sum_range_succ (n := n % 32 + 1), e3, partN_of_lt m c (n + 1) hn]

/-- At the last point of a group the output block is built from the cell's contents there. -/
theorem out_last (c : Dev nD) (t : Fin cfg0.N) (h1 : t.val % 32 = 31) :
    (outsAt0 m c t.val t.isLt).1 = k0_pay3 (F := Ideal) (outsAt0 m c t.val t.isLt).2 := by
  have h0 : ¬t.val % 32 = 0 := by omega
  rw [outsAt0_C m c t h0 h1]
  dsimp only
  exact (Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (congrArg (k0_pay3 (F := Ideal)) (Pieces.sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm)

end Cert.KernelIdeal.Acc

end
-- ==== Proof.KernelFinal.lean ====
/-
  The output array after the run. The output window's block at point n is block (n / 32, 0, 0) of the
  [2, 8, 128] array, written back only at the last point of each group (n = 31 and n = 63). What is
  written there is the group's sum of partial sums at the block's first entry and zero elsewhere. The two
  blocks tile the array, so the array ends holding, at (g, p, q): group g's sum when p = q = 0, else zero.
-/
import proofs.«427596_j76922864272129_2_alg».proof.Proof.KernelAcc
import Idealize.ShloMosaic.Lib.Pipeline.Value

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Group `g`'s sum: the partial sums of its 32 blocks. -/
def groupSum (c : Dev nD) (g : ℕ) : EReal := ∑ k ∈ Finset.range 32, Acc.partN m c (32 * g + k)

/-- The output array after the run, as one function of its index. -/
def G (c : Dev nD) : Vec Ideal S2x8x128 .f32 :=
  fun j => if (j 1).val = 0 ∧ (j 2).val = 0 then groupSum m c (j 0).val else 0

/-- The output window's block index at each point: (n / 32, 0, 0). Decided over the grid. -/
theorem idx_out : ∀ t : Fin cfg0.N, win0_3.index t (0 : Fin 3) = t.val / 32
    ∧ win0_3.index t (1 : Fin 3) = 0 ∧ win0_3.index t (2 : Fin 3) = 0 :=
  (by decide +kernel : ∀ t : Fin grid0.N, _)

/-- What the last point of a group writes back, entry by entry of the block. -/
theorem block_eq (c : Dev nD) (t : Fin cfg0.N) (h31 : t.val % 32 = 31) (y : S1x8x128.Idx) :
    k0_pay3 (F := Ideal) (outsAt0 m c t.val t.isLt).2 y = G m c (((cfg0.win 3).blk t).view.emb y) := by
  obtain ⟨i0, i1, i2⟩ := idx_out t
  obtain ⟨a, p, q, rfl⟩ : ∃ (a : Fin 1) (p : Fin 8) (q : Fin 128), y = ix3 a p q := ⟨y 0, y 1, y 2, eq_ix3 y⟩
  have e0 : ((((cfg0.win 3).blk t).view.emb (ix3 a p q)) 0).val = win0_3.index t (0 : Fin 3) * 1 + 1 * a.val := rfl
  have e1 : ((((cfg0.win 3).blk t).view.emb (ix3 a p q)) 1).val = win0_3.index t (1 : Fin 3) * 8 + 1 * p.val := rfl
  have e2 : ((((cfg0.win 3).blk t).view.emb (ix3 a p q)) 2).val = win0_3.index t (2 : Fin 3) * 128 + 1 * q.val := rfl
  refine (PayValue.pay3_apply _ a p q).trans ?_
  unfold G
  rw [e0, e1, e2, i0, i1, i2]
  have ha : a.val = 0 := by omega
  refine if_congr (by omega) ?_ rfl
  rw [Acc.cell_eq m c t.val t.isLt (ix2 0 0), h31]
  unfold groupSum
  have e3 : t.val - 31 = 32 * (t.val / 32 * 1 + 1 * a.val) := by omega
  rw [e3]

/-- WHAT A FLUSHING POINT WRITES BACK is its block of `G`. -/
theorem flushed_eq (c : Dev nD) (t : Fin cfg0.N) (hf : (cfg0.win 3).flush t = true) :
    (dats m 0 c).flushed 3 t = ((cfg0.win 3).blk t).view.read (Elt Ideal) (G m c) := by
  have h31 : t.val % 32 = 31 := (flush0_3 t).mp hf
  show (cfg0.win 3).cut (grid0.coords t) ((dats m 0 c).after 3 t) = _
  rw [after0_3, Acc.out_last m c t h31]
  exact funext fun y => block_eq m c t h31 y

/-- An index of the array is in point `t`'s block iff each coordinate is in the block's range on its axis. -/
theorem mem_blk (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v18).slice (win0_3.rect t)).set ↔ _
  rw [View.set_slice_whole, Rect.mem_set_unit]
  exact Iff.rfl

/-- Every index of the array lies in the block the last point of its group writes back. -/
theorem cover (i : S2x8x128.Idx) :
    ∃ t : Fin cfg0.N, (cfg0.win 3).flush t = true ∧ i ∈ ((cfg0.win 3).blk t).view.set := by
  have hi0 : (i 0).val < 2 := (i 0).isLt
  have hi1 : (i 1).val < 8 := (i 1).isLt
  have hi2 : (i 2).val < 128 := (i 2).isLt
  have hN : cfg0.N = 64 := N_0
  have hlt : 32 * (i 0).val + 31 < cfg0.N := by omega
  refine ⟨⟨32 * (i 0).val + 31, hlt⟩, (flush0_3 _).mpr (by show (32 * (i 0).val + 31) % 32 = 31; omega), ?_⟩
  obtain ⟨i0, i1, i2⟩ := idx_out ⟨32 * (i 0).val + 31, hlt⟩
  have i0' : win0_3.index ⟨32 * (i 0).val + 31, hlt⟩ (0 : Fin 3) = (i 0).val := by rw [i0]; show (32 * (i 0).val + 31) / 32 = _; omega
  rw [mem_blk]
  intro a
  match a with
  | ⟨0, _⟩ => show win0_3.index _ (0 : Fin 3) * 1 ≤ (i 0).val ∧ (i 0).val < win0_3.index _ (0 : Fin 3) * 1 + 1; rw [i0']; omega
  | ⟨1, _⟩ => show win0_3.index _ (1 : Fin 3) * 8 ≤ (i 1).val ∧ (i 1).val < win0_3.index _ (1 : Fin 3) * 8 + 8; rw [i1]; omega
  | ⟨2, _⟩ => show win0_3.index _ (2 : Fin 3) * 128 ≤ (i 2).val ∧ (i 2).val < win0_3.index _ (2 : Fin 3) * 128 + 128; rw [i2]; omega

/-- THE ARRAY after the run. -/
theorem final (c : Dev nD) : (dats m 0 c).arrAt 3 cfg0.N = G m c :=
  (dats m 0 c).arrAt_eq_of_cover 3 (G m c) (flushed_eq m c) (fun i => cover i)

end Cert.KernelIdeal.Final

end
-- ==== Proof.KernelHost.lean ====
/-
  The kernel program's host operations around the region: what the region finds in the label column and the
  weight column, and what the operations after the region make of the region's output array.
-/
import proofs.«427596_j76922864272129_2_alg».proof.Proof.Gen.KernelIdeal.Frame
import proofs.«427596_j76922864272129_2_alg».proof.Proof.LibColumns
import Idealize.ShloMosaic.Lib.Pipeline.Value
import Idealize.ShloMosaic.Lib.ValueIdx
import Idealize.ShloMosaic.Lib.ValueIdxRank1
import Idealize.ShloMosaic.Lib.IdealHost
import Idealize.ShloMosaic.Lib.StableHlo.Run
import Idealize.ShloMosaic.PureOps.Ideal.Laws

noncomputable section

namespace Cert.KernelIdeal.HostValue

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The per-row weights the host builds before the region: zeros, with `v[index]` scattered to the rows
    `index mod 16384` — the composed term of the operations that compute it, as a function of `v` and `index`. -/
def wts (v : FVec Ideal S1000000 .f32) (idx : IVec S16384 32) : FVec Ideal S16384 .f32 :=
  -- the divisor 16384 and the remainder function's guard against a zero divisor
  let n : IVec S_ 32 := constantI S_ 32 16384#32
  let d : IVec S_ 32 := select (cmpi .eq (id n) (constantI S_ 32 0#32)) (constantI S_ 32 1#32) (id n)
  -- the truncated remainder and its correction to the divisor's sign
  let r : IVec S16384 32 := Host.remsi idx (broadcastInDim S16384 ![] bcast_S_S16384 d)
  let nz : IVec S16384 1 := cmpi .ne r (broadcastInDim S16384 ![] bcast_S_S16384 (constantI S_ 32 0#32))
  let rneg : IVec S16384 1 := cmpi .slt r (broadcastInDim S16384 ![] bcast_S_S16384 (constantI S_ 32 0#32))
  let dneg : IVec S16384 1 := broadcastInDim S16384 ![] bcast_S_S16384 (cmpi .slt d (constantI S_ 32 0#32))
  let row : IVec S16384 32 :=
    select (andi (cmpi .ne rneg dneg) nz) (addi r (broadcastInDim S16384 ![] bcast_S_S16384 d)) r
  -- the gather's start indices: index, wrapped from negative values by 1000000, as one column
  let src : IVec S16384 32 :=
    select (cmpi .slt idx (broadcastInDim S16384 ![] bcast_S_S16384 (constantI S_ 32 0#32)))
      (addi idx (broadcastInDim S16384 ![] bcast_S_S16384 (constantI S_ 32 1000000#32))) idx
  let upd : FVec Ideal S16384 .f32 :=
    Host.gather gather_S1000000_S16384x1_S16384_n_0_n_n_0_1_1 v (broadcastInDim S16384x1 ![0] bcast_S16384_S16384x1_0 src)
  -- the scatter's row indices: the remainder, wrapped from negative values by 16384, as one column
  let dst : IVec S16384 32 :=
    select (cmpi .slt row (broadcastInDim S16384 ![] bcast_S_S16384 (constantI S_ 32 0#32)))
      (addi row (broadcastInDim S16384 ![] bcast_S_S16384 (constantI S_ 32 16384#32))) row
  Host.scatter scatter_S16384_S16384x1_S16384_n_0_0_1 (fun _ b => b)
    (broadcastInDim S16384 ![] bcast_S_S16384 (constant (F := Ideal) S_ .f32 0x00000000#32))
    (broadcastInDim S16384x1 ![0] bcast_S16384_S16384x1_0 dst) upd

/-- The label column the region reads is the label vector, row by row. -/
theorem V_main_v0_apply (c : Dev nD) (i : Fin 16384) :
    (V m c main_v0 : Vec Ideal S16384x1 .i32) (ix2 i 0) = (m ((c : Thread nD τ).loc main_arg2) : Vec Ideal S16384 .i32) (ix1 i) := by
  have e : (V m c main_v0 : S16384x1.Idx → BitVec 32)
      = shapeCast S16384x1 (m ((c : Thread nD τ).loc main_arg2) : Vec Ideal S16384 .i32) shapeCasts_S16384_S16384x1 := by
    dsimp only [Gen.V, Gen.V0]
    simp only [Gen.hostOps0, Gen.hostOps0_1, Gen.hostOps0_2, List.flatten_cons, List.flatten_nil, List.append_nil,
      List.cons_append, List.nil_append]
    after_results
    rfl
  exact (congrFun e (ix2 i 0)).trans (Cert.Lib.Columns.shapeCast_a_a1_apply _ shapeCasts_S16384_S16384x1 i 0)

/-- The weight column the region reads is the weight vector, row by row. -/
theorem V_main_v17_apply (c : Dev nD) (i : Fin 16384) :
    (V m c main_v17 : Vec Ideal S16384x1 .f32) (ix2 i 0)
      = wts (m ((c : Thread nD τ).loc main_arg1)) (m ((c : Thread nD τ).loc main_arg3)) (ix1 i) := by
  have e : (V m c main_v17 : S16384x1.Idx → EReal)
      = shapeCast S16384x1 (wts (m ((c : Thread nD τ).loc main_arg1)) (m ((c : Thread nD τ).loc main_arg3)))
          shapeCasts_S16384_S16384x1 := by
    dsimp only [Gen.V, Gen.V0]
    simp only [Gen.hostOps0, Gen.hostOps0_1, Gen.hostOps0_2, List.flatten_cons, List.flatten_nil, List.append_nil,
      List.cons_append, List.nil_append]
    after_results_simp
    rfl
  exact (congrFun e (ix2 i 0)).trans (Cert.Lib.Columns.shapeCast_a_a1_apply _ shapeCasts_S16384_S16384x1 i 0)

/-- The slice [0:2, 0:1, 0:1] of a 2 x 8 x 128 array, read as a vector of two entries, holds at g the array's
    entry (g, 0, 0): both indices of the cast have row-major position g. -/
theorem slice_cast_apply (o : Vec Ideal S2x8x128 .f32) (g : Fin 2) :
    shapeCast S2 (extractStridedSlice S2x1x1 ![0, 0, 0] o slices_S2x8x128_S2x1x1_0_0_0) shapeCasts_S2x1x1_S2 (ix1 g)
      = o (ix3 g 0 0) := by
  refine (shapeCast_apply _ shapeCasts_S2x1x1_S2 (ix1 g) (ix3 g (0 : Fin 1) (0 : Fin 1)) ?_).trans ?_
  · rw [Shape.rowMajor_val_three, Shape.rowMajor_val_one]
    show (g.val * 1 + 0) * 1 + 0 = g.val
    omega
  · unfold extractStridedSlice
    refine congrArg o (funext fun a => Fin.ext ?_)
    match a with
    | ⟨0, _⟩ => exact Nat.zero_add _
    | ⟨1, _⟩ => rfl
    | ⟨2, _⟩ => rfl

/-- The sum from zero of the two entries a 2 x 8 x 128 array holds at (g, 0, 0): the slice [0:2, 0:1, 0:1], read as
    a vector of two entries and reduced by addition from the zero constant. -/
theorem tail_sum (o : Vec Ideal S2x8x128 .f32) (j : S_.Idx) :
    Host.reduceAdd (F := Ideal)
        (shapeCast S2 (extractStridedSlice S2x1x1 ![0, 0, 0] o slices_S2x8x128_S2x1x1_0_0_0) shapeCasts_S2x1x1_S2 : Vec Ideal S2 .f32)
        (constant (F := Ideal) S_ .f32 0x00000000#32) reducesTo_S2_S_d0 h_S_ j
      = 0 + ∑ g : Fin 2, o (ix3 g 0 0) := by
  rw [hostReduceAdd_apply, Ideal.hostReduceAdd_total reducesTo_S2_S_d0 (fun b => b.elim0), constant_apply,
    Ideal.ofBits_zero_f32]
  refine congrArg (0 + ·) ?_
  rw [← Equiv.sum_comp (idxEquiv1 (n := 2)).symm]
  exact Finset.sum_congr rfl fun g _ => slice_cast_apply o g

/-- The program's result: the first entries of the output array's two blocks, summed from zero, over 16384. -/
theorem tail_eq (c : Dev nD) (o : Vec Ideal S2x8x128 .f32) (ho : (dats m 0 c).arrAt 3 cfg0.N = o) :
    Pipeline.afterTail₀ cfgs (dats m) 0 (V0 m) [hostOps1] c main_v22
      = Host.divf (F := Ideal) (fun _ => 0 + ∑ g : Fin 2, o (ix3 g 0 0)) (constant S_ .f32 0x46800000#32) := by
  unfold Pipeline.afterTail₀
  show StableHlo.after hostOps1 _ (Proc.devRef .tc main_v22) = _
  after_results
  have hw : Pipeline.withArrays (cfgs 0).spec c (V0 m c) (fun w => (dats m 0 c).arrAt w (cfgs 0).N) (Proc.devRef .tc main_v18) = o :=
    (Pipeline.withArrays_arr spec0 launch0.win.arr_inj c _ _ 3).trans ho
  rw [hw]
  refine congrArg (fun z => Host.divf (F := Ideal) z (constant S_ .f32 0x46800000#32)) ?_
  funext j
  exact tail_sum o j

end Cert.KernelIdeal.HostValue

end
-- ==== Proof.SpecLaws.lean ====
/-
  Two laws about the specification's functions.
-/
import proofs.«427596_j76922864272129_2_alg».proof.Proof.Spec
import Mathlib.Data.Finset.Fold
import Mathlib.Algebra.BigOperators.Fin
import Mathlib.Data.EReal.Operations

noncomputable section

namespace Cert.Spec

open Idealize.ShloMosaic

/-- A finite sum of coerced reals is the coerced sum. -/
private theorem coe_sum {ι : Type} (s : Finset ι) (a : ι → ℝ) :
    ∑ j ∈ s, ((a j : ℝ) : EReal) = ((∑ j ∈ s, a j : ℝ) : EReal) := by
  classical
  induction s using Finset.induction_on with
  | empty => simp
  | insert j s hj ih => rw [Finset.sum_insert hj, Finset.sum_insert hj, ih, EReal.coe_add]

/-- The fold of `max` from minus infinity over a nonempty finite family of reals is a real. -/
private theorem fold_max_coe {ι : Type} (s : Finset ι) (a : ι → ℝ) (hs : s.Nonempty) :
    ∃ m : ℝ, s.fold max ⊥ (fun j => ((a j : ℝ) : EReal)) = (m : EReal) := by
  classical
  induction s using Finset.induction_on with
  | empty => exact absurd hs Finset.not_nonempty_empty
  | insert j s hj ih =>
    rw [Finset.fold_insert hj]
    rcases s.eq_empty_or_nonempty with he | hne
    · subst he
      exact ⟨a j, by rw [Finset.fold_empty, max_eq_left bot_le]⟩
    · obtain ⟨m, hm⟩ := ih hne
      exact ⟨max (a j) m, by rw [hm]; exact (EReal.coe_strictMono.monotone.map_max).symm⟩

/-- The masked sum over the classes picks the label's score. -/
private theorem masked_sum (row : Fin 4096 → EReal) (t : BitVec 32) (ht : t.toNat < 4096) :
    ∑ j : Fin 4096, (if BitVec.ofNat 32 j.val = t then row j else 0) = row ⟨t.toNat, ht⟩ := by
  rw [Finset.sum_eq_single (⟨t.toNat, ht⟩ : Fin 4096)]
  · rw [if_pos]
    apply BitVec.eq_of_toNat_eq
    rw [BitVec.toNat_ofNat]
    exact Nat.mod_eq_of_lt (by omega)
  · intro j _ hj
    rw [if_neg]
    intro h
    apply hj
    apply Fin.ext
    have h2 := congrArg BitVec.toNat h
    rw [BitVec.toNat_ofNat, Nat.mod_eq_of_lt (by have := j.isLt; omega)] at h2
    exact h2
  · intro h
    exact absurd (Finset.mem_univ _) h

/-- On a row of real numbers, with the label a class index, the kernel's and the reference's spellings of the
    row's loss agree. -/
theorem lossK_eq_lossR (row : Fin 4096 → EReal) (t : BitVec 32) (hfin : ∀ j, ∃ a : ℝ, row j = (a : EReal))
    (ht : t.toNat < 4096) : lossK row t = lossR row ⟨t.toNat, ht⟩ := by
  choose a ha using hfin
  have hrow : row = fun j => ((a j : ℝ) : EReal) := funext ha
  -- the row maximum is a real
  obtain ⟨m, hm⟩ := fold_max_coe (Finset.univ : Finset (Fin 4096)) a ⟨⟨0, by omega⟩, Finset.mem_univ _⟩
  have hM : rowMax row = (m : EReal) := by rw [rowMax, hrow]; exact hm
  -- the sum of the shifted exponentials is a positive real, so its logarithm is a real
  have hS : ∑ j : Fin 4096, Ideal.exp (row j - rowMax row)
      = ((∑ j : Fin 4096, Real.exp (a j - m) : ℝ) : EReal) := by
    rw [← coe_sum]
    refine Finset.sum_congr rfl (fun j _ => ?_)
    rw [hM, ha j, ← EReal.coe_sub, Ideal.exp_coe]
  have hpos : 0 < ∑ j : Fin 4096, Real.exp (a j - m) :=
    Finset.sum_pos (fun j _ => Real.exp_pos _) ⟨⟨0, by omega⟩, Finset.mem_univ _⟩
  obtain ⟨l, hL⟩ : ∃ l : ℝ, rowLogSum row = (l : EReal) :=
    ⟨Real.log (∑ j : Fin 4096, Real.exp (a j - m)), by
      rw [rowLogSum, hS, Ideal.log_coe, if_neg (not_le.mpr hpos)]⟩
  -- everything is a coerced real: the identity is one of the field of reals
  rw [lossK, lossR, masked_sum row t ht, hM, hL, ha ⟨t.toNat, ht⟩]
  generalize a ⟨t.toNat, ht⟩ = xt
  rw [← EReal.coe_add, ← EReal.coe_sub, ← EReal.coe_sub, ← EReal.coe_sub, ← EReal.coe_neg]
  exact congrArg Real.toEReal (by ring)

/-- The batch's rows, indexed by group, block and row within the block: a row's number splits back into
    its group (the quotient by 8192), its block (the quotient by 256, modulo 32) and its place in the block
    (the remainder modulo 256). -/
private def rowEquiv : (Fin 2 × Fin 32) × Fin 256 ≃ Fin 16384 where
  toFun p := blockRow p.1.1 p.1.2 p.2
  invFun i := ((⟨i.val / 8192, by have := i.isLt; omega⟩, ⟨i.val / 256 % 32, by omega⟩),
    ⟨i.val % 256, by omega⟩)
  left_inv := by
    rintro ⟨⟨g, t⟩, r⟩
    have hg := g.isLt; have ht := t.isLt; have hr := r.isLt
    refine Prod.ext (Prod.ext (Fin.ext ?_) (Fin.ext ?_)) (Fin.ext ?_) <;> dsimp only [blockRow] <;> omega
  right_inv := by
    intro i
    have hi := i.isLt
    apply Fin.ext
    dsimp only [blockRow]
    omega

/-- Summing over groups, blocks and rows within a block is summing over the batch. -/
theorem sum_blockRow (f : Fin 16384 → EReal) :
    ∑ g : Fin 2, ∑ t : Fin 32, ∑ r : Fin 256, f (blockRow g t r) = ∑ i : Fin 16384, f i := by
  rw [← Equiv.sum_comp rowEquiv f, Fintype.sum_prod_type, Fintype.sum_prod_type]
  exact Finset.sum_congr rfl (fun g _ => Finset.sum_congr rfl (fun t _ => Finset.sum_congr rfl (fun r _ => rfl)))

end Cert.Spec

end
-- ==== Proof.KernelRun.lean ====
/-
  The kernel program's run, read as a value. The three input windows read block n at point n: rows
  256 n .. 256 n + 255 of the score array, of the label column and of the weight column. So a block's
  partial sum is the sum over those rows of the row's loss times the row's weight; a group's sum runs over
  its 32 blocks; the two groups' sums, added from zero by the operations after the region, run over the
  whole batch. The program's result is that sum over 16384.
-/
import proofs.«427596_j76922864272129_2_alg».proof.Proof.KernelFinal
import proofs.«427596_j76922864272129_2_alg».proof.Proof.KernelHost
import proofs.«427596_j76922864272129_2_alg».proof.Proof.SpecLaws

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The argument arrays and the weights at their literal types. -/
abbrev xarr (c : Dev nD) : Vec Ideal S16384x4096 .f32 := (m ((c.tc : Thread nD τ).loc main_arg0))
abbrev tarr (c : Dev nD) : Vec Ideal S16384 .i32 := (m ((c.tc : Thread nD τ).loc main_arg2))
abbrev warr (c : Dev nD) : Vec Ideal S16384 .f32 := HostValue.wts (m ((c.tc : Thread nD τ).loc main_arg1)) (m ((c.tc : Thread nD τ).loc main_arg3))

/-- Row `i`'s term of the sum: its loss (the kernel's spelling) times its weight. -/
def term (c : Dev nD) (i : Fin 16384) : EReal :=
  Cert.Spec.lossK (fun j => xarr m c (ix2 i j)) (tarr m c (ix1 i)) * warr m c (ix1 i)

/-- The input windows' block index at each point: (n, 0). Decided over the grid. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of point `t`'s blocks is row `256 t + r` of the arrays. -/
def rowOf (t : Fin cfg0.N) (r : Fin 256) : Fin 16384 :=
  ⟨t.val * 256 + r.val, by have h : t.val < 64 := lt_of_lt_of_eq t.isLt N_0; have := r.isLt; omega⟩

theorem xblk_apply (c : Dev nD) (t : Fin cfg0.N) (r : Fin 256) (j : Fin 4096) :
    Acc.xblk m c t (ix2 r j) = xarr m c (ix2 (rowOf t r) j) := by
  obtain ⟨e0, e1, -, -, -, -⟩ := idx_in t
  unfold Acc.xblk iblk
  rw [View.read_apply]
  show V m c main_arg0 _ = _
  rw [V_main_arg0]
  show xarr m c _ = xarr m c _
  congr 1
  funext a
  apply Fin.ext
  match a with
  | ⟨0, _⟩ => show win0_0.index t (0 : Fin 2) * 256 + 1 * r.val = t.val * 256 + r.val; rw [e0]; omega
  | ⟨1, _⟩ => show win0_0.index t (1 : Fin 2) * 4096 + 1 * j.val = j.val; rw [e1]; omega

theorem tblk_apply (c : Dev nD) (t : Fin cfg0.N) (r : Fin 256) :
    Acc.tblk m c t (ix2 r 0) = tarr m c (ix1 (rowOf t r)) := by
  obtain ⟨-, -, e0, e1, -, -⟩ := idx_in t
  refine Eq.trans ?_ (HostValue.V_main_v0_apply m c (rowOf t r))
  unfold Acc.tblk iblk
  rw [View.read_apply]
  show (V m c main_v0 : Vec Ideal S16384x1 .i32) _ = (V m c main_v0 : Vec Ideal S16384x1 .i32) _
  congr 1
  funext a
  apply Fin.ext
  match a with
  | ⟨0, _⟩ => show win0_1.index t (0 : Fin 2) * 256 + 1 * r.val = t.val * 256 + r.val; rw [e0]; omega
  | ⟨1, _⟩ => show win0_1.index t (1 : Fin 2) * 1 + 1 * 0 = 0; rw [e1]

theorem wblk_apply (c : Dev nD) (t : Fin cfg0.N) (r : Fin 256) :
    Acc.wblk m c t (ix2 r 0) = warr m c (ix1 (rowOf t r)) := by
  obtain ⟨-, -, -, -, e0, e1⟩ := idx_in t
  refine Eq.trans ?_ (HostValue.V_main_v17_apply m c (rowOf t r))
  unfold Acc.wblk iblk
  rw [View.read_apply]
  show (V m c main_v17 : Vec Ideal S16384x1 .f32) _ = (V m c main_v17 : Vec Ideal S16384x1 .f32) _
  congr 1
  funext a
  apply Fin.ext
  match a with
  | ⟨0, _⟩ => show win0_2.index t (0 : Fin 2) * 256 + 1 * r.val = t.val * 256 + r.val; rw [e0]; omega
  | ⟨1, _⟩ => show win0_2.index t (1 : Fin 2) * 1 + 1 * 0 = 0; rw [e1]

/-- A block's partial sum is the sum of its rows' terms. -/
theorem part_eq (c : Dev nD) (t : Fin cfg0.N) : Acc.part m c t = ∑ r : Fin 256, term m c (rowOf t r) := by
  unfold Acc.part term
  refine Finset.sum_congr rfl fun r _ => ?_
  have hx : (fun j : Fin 4096 => Acc.xblk m c t (ix2 r j)) = fun j => xarr m c (ix2 (rowOf t r) j) :=
    funext fun j => xblk_apply m c t r j
  rw [hx, tblk_apply, wblk_apply]

/-- The sum the operations after the region form is the sum over the batch. -/
theorem sum_eq (c : Dev nD) :
    (0 : EReal) + ∑ g : Fin 2, Final.G m c (ix3 g 0 0) = 0 + ∑ i : Fin 16384, term m c i := by
  refine congrArg (fun s : EReal => (0 : EReal) + s) ?_
  rw [← Cert.Spec.sum_blockRow (term m c)]
  refine Finset.sum_congr rfl fun g _ => ?_
  have hg : g.val < 2 := g.isLt
  show (if ((ix3 g (0 : Fin 8) (0 : Fin 128)) 1).val = 0 ∧ ((ix3 g (0 : Fin 8) (0 : Fin 128)) 2).val = 0 then Final.groupSum m c ((ix3 g (0 : Fin 8) (0 : Fin 128)) 0).val else 0) = _
  rw [if_pos ⟨rfl, rfl⟩]
  show Final.groupSum m c g.val = _
  unfold Final.groupSum
  rw [Finset.sum_range]
  refine Finset.sum_congr rfl fun t _ => ?_
  have ht : t.val < 32 := t.isLt
  have hN : cfg0.N = 64 := N_0
  rw [Acc.partN_of_lt m c (32 * g.val + t.val) (by omega), part_eq]
  refine Finset.sum_congr rfl fun r _ => ?_
  congr 1
  apply Fin.ext
  show (32 * g.val + t.val) * 256 + r.val = (g.val * 32 + t.val) * 256 + r.val
  omega

/-- THE RUN, READ: the result at the batch's sum over 16384, the arguments unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v22)
          = Host.divf (F := Ideal) (fun _ => 0 + ∑ i : Fin 16384, term m c i) (constant S_ .f32 0x46800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v22 (Pipeline.mem_restRefs_of main_v22 (by decide) (by decide))).trans
        ((HostValue.tail_eq m c (Final.G m c) (Final.final m c)).trans
          (congrArg (fun s : EReal => Host.divf (F := Ideal) (fun _ => s) (constant S_ .f32 0x46800000#32)) (sum_eq m c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.RefTerm.lean ====
/-
  The reference's result as a term of its arguments: the operations of its program composed, in their order.
-/
import proofs.«427596_j76922864272129_2_alg».proof.Proof.Gen.ReferenceIdeal
import Idealize.ShloMosaic.PureOps.Ideal

noncomputable section

namespace Cert.ReferenceIdeal.RefTerm

open Idealize.ShloMosaic Cert.ReferenceIdeal Cert.ReferenceIdeal.Gen

/-! ## The outlined log-softmax -/

/-- Each score less its row's maximum (the maximum folded from minus infinity, then taken once more against
    minus infinity, as the program does). -/
def lsmShift (x : FVec Ideal S16384x4096 .f32) : FVec Ideal S16384x4096 .f32 :=
  subf x
    (broadcastInDim S16384x4096 ![0, 1] bcast_S16384x1_S16384x4096_0_1
      (broadcastInDim S16384x1 ![0] bcast_S16384_S16384x1_0
        (maximumf
          (broadcastInDim S16384 ![] bcast_S_S16384 (constant (F := Ideal) S_ .f32 0xFF800000#32))
          (Host.reduce FloatOps.maximumf x (constant (F := Ideal) S_ .f32 0xFF800000#32)
            reducesTo_S16384x4096_S16384_d1 h_S_))))

/-- The log-softmax: the shifted scores less the logarithm of their row's sum of exponentials. -/
def lsm (x : FVec Ideal S16384x4096 .f32) : FVec Ideal S16384x4096 .f32 :=
  subf (lsmShift x)
    (broadcastInDim S16384x4096 ![0, 1] bcast_S16384x1_S16384x4096_0_1
      (Host.log (F := Ideal)
        (broadcastInDim S16384x1 ![0] bcast_S16384_S16384x1_0
          (Host.reduceAdd (F := Ideal) (Host.exp (F := Ideal) (lsmShift x)) (constant (F := Ideal) S_ .f32 0x00000000#32)
            reducesTo_S16384x4096_S16384_d1 h_S_))))

/-! ## The outlined take-along-axis -/

/-- The labels as gather indices: a negative label wrapped by 4096, the column given a unit index axis. -/
def takeIdx (a : IVec S16384x1 32) : IVec S16384x1x1 32 :=
  shapeCast S16384x1x1
    (select (cmpi .slt a (broadcastInDim S16384x1 ![] bcast_S_S16384x1 (constantI S_ 32 0#32)))
      (addi a (broadcastInDim S16384x1 ![] bcast_S_S16384x1 (constantI S_ 32 4096#32))) a)
    shapeCasts_S16384x1_S16384x1x1

/-- The gathered column, a not-a-number where the (wrapped) label is outside 0 … 4095. -/
def takeSel (y : FVec Ideal S16384x4096 .f32) (i : IVec S16384x1x1 32) : FVec Ideal S16384x1 .f32 :=
  select
    (Host.reduce IntOp.andi
      (andi (cmpi .sge i (broadcastInDim S16384x1x1 ![] bcast_S_S16384x1x1 (constantI S_ 32 0#32)))
        (cmpi .sle i
          (broadcastInDim S16384x1x1 ![0, 1, 2] bcast_S1x1x1_S16384x1x1_0_1_2
            (broadcastInDim S1x1x1 ![2] bcast_S1_S1x1x1_2 (constantI S1 32 4095#32)))))
      (constantI S_ 1 1#1) reducesTo_S16384x1x1_S16384x1_d2 h_S_)
    (Host.gather gather_S16384x4096_S16384x1x1_S16384x1_n_1_0_0_1_2_11 y i)
    (broadcastInDim S16384x1 ![] bcast_S_S16384x1 (constant (F := Ideal) S_ .f32 0x7FC00000#32))

/-- The outlined take-along-axis of `y` at the label column `a`. -/
def take (y : FVec Ideal S16384x4096 .f32) (a : IVec S16384x1 32) : FVec Ideal S16384x1 .f32 :=
  takeSel y (takeIdx a)

/-! ## The outlined remainder -/

/-- The divisor the outlined remainder uses: one where the given divisor is zero, else the divisor. -/
def remDiv (c : IVec S_ 32) : IVec S_ 32 :=
  select (cmpi .eq (id c) (constantI S_ 32 0#32)) (constantI S_ 32 1#32) (id c)

/-- The sign fix of a truncated remainder `q` by the divisor `d`: where `q` is nonzero and its sign differs
    from the divisor's, `q + d`. -/
def remFix (q : IVec S16384 32) (d : IVec S_ 32) : IVec S16384 32 :=
  select
    (andi
      (cmpi .ne (cmpi .slt q (broadcastInDim S16384 ![] bcast_S_S16384 (constantI S_ 32 0#32)))
        (broadcastInDim S16384 ![] bcast_S_S16384 (cmpi .slt d (constantI S_ 32 0#32))))
      (cmpi .ne q (broadcastInDim S16384 ![] bcast_S_S16384 (constantI S_ 32 0#32))))
    (addi q (broadcastInDim S16384 ![] bcast_S_S16384 d)) q

/-- The outlined (floored) remainder of `a` by the word `c`. -/
def remainder (a : IVec S16384 32) (c : IVec S_ 32) : IVec S16384 32 :=
  remFix (Host.remsi a (broadcastInDim S16384 ![] bcast_S_S16384 (remDiv c))) (remDiv c)

/-! ## The program's own operations -/

/-- An index vector with its negative entries wrapped by `n`, given a unit index axis. -/
def wrapIdx (n : BitVec 32) (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 n))) i)

/-- The per-row weights: zeros, with `v[index]` scattered to the rows `index mod 16384` — the composed term of
    the operations that compute it. -/
def wts (v : FVec Ideal S1000000 .f32) (idx : IVec S16384 32) : FVec Ideal S16384 .f32 :=
  Host.scatter scatter_S16384_S16384x1_S16384_n_0_0_1 (fun _ b => b)
    (broadcastInDim S16384 ![] bcast_S_S16384 (constant (F := Ideal) S_ .f32 0x00000000#32))
    (wrapIdx 16384#32 (remainder idx (constantI S_ 32 16384#32)))
    (Host.gather gather_S1000000_S16384x1_S16384_n_0_n_n_0_1_1 v (wrapIdx 1000000#32 idx))

/-- The sum the reference divides: the negated log-softmax at each row's label, times the row's weight `w`,
    summed from zero over the rows — the composed term of the operations that compute it, the weights a variable. -/
def refSum (x : FVec Ideal S16384x4096 .f32) (tg : IVec S16384 32) (w : FVec Ideal S16384 .f32) : FVec Ideal S_ .f32 :=
  Host.reduceAdd (F := Ideal)
    (mulf
      (Host.negf (F := Ideal)
        (shapeCast S16384 (take (lsm x) (broadcastInDim S16384x1 ![0] bcast_S16384_S16384x1_0 tg))
          shapeCasts_S16384x1_S16384))
      w)
    (constant (F := Ideal) S_ .f32 0x00000000#32) reducesTo_S16384_S_d0 h_S_

end Cert.ReferenceIdeal.RefTerm

end
-- ==== Proof.RefRun.lean ====
/-
  The reference's run: every weakly fair execution of its program ends with the result at the composed term
  of the arguments, the arguments unchanged.
-/
import proofs.«427596_j76922864272129_2_alg».proof.Proof.RefTerm
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem Idealize.ShloMosaic.StableHlo
open Cert.ReferenceIdeal Cert.ReferenceIdeal.Gen

section Ops
variable {F : FTy → Type} [FloatOps F]

/-- The program as one straight line: its 87 operations in order, each called function's operations in the
    call's place over the call's own buffers (the log-softmax's fifteen, the take-along-axis's twenty-two, the
    remainder's twenty with the select of the function it calls in turn), every operation at the buffers
    themselves with its function at the buffers' types. -/
abbrev ops : List (HloOp τ sig (Elt F)) :=
  [ nullary main_call0_cst (constant S_ .f32 0xFF800000#32 : (⟨S_, .f32⟩ : BufTy).Contents (Elt F)),
    binary main_arg0 main_call0_cst main_call0_v0 ((fun x v => Host.reduce FloatOps.maximumf x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    nullary main_call0_cst_0 (constant S_ .f32 0xFF800000#32 : (⟨S_, .f32⟩ : BufTy).Contents (Elt F)),
    unary main_call0_cst_0 main_call0_v1 ((broadcastInDim S16384 ![] bcast_S_S16384) : (⟨S_, .f32⟩ : BufTy).Contents (Elt F) → (⟨S16384, .f32⟩ : BufTy).Contents (Elt F)),
    binary main_call0_v1 main_call0_v0 main_call0_v2 (maximumf : (⟨S16384, .f32⟩ : BufTy).Contents (Elt F) → (⟨S16384, .f32⟩ : BufTy).Contents (Elt F) → (⟨S16384, .f32⟩ : BufTy).Contents (Elt F)),
    unary main_call0_v2 main_call0_v3 ((broadcastInDim S16384x1 ![0] bcast_S16384_S16384x1_0) : (⟨S16384, .f32⟩ : BufTy).Contents (Elt F) → (⟨S16384x1, .f32⟩ : BufTy).Contents (Elt F)),
    unary main_call0_v3 main_call0_v4 ((broadcastInDim S16384x4096 ![0, 1] bcast_S16384x1_S16384x4096_0_1) : (⟨S16384x1, .f32⟩ : BufTy).Contents (Elt F) → (⟨S16384x4096, .f32⟩ : BufTy).Contents (Elt F)),
    binary main_arg0 main_call0_v4 main_call0_v5 (subf : (⟨S16384x4096, .f32⟩ : BufTy).Contents (Elt F) → (⟨S16384x4096, .f32⟩ : BufTy).Contents (Elt F) → (⟨S16384x4096, .f32⟩ : BufTy).Contents (Elt F)),
    unary main_call0_v5 main_call0_v6 (Host.exp : (⟨S16384x4096, .f32⟩ : BufTy).Contents (Elt F) → (⟨S16384x4096, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S16384x4096_S16384_d1 h_S_) : (⟨S16384x4096, .f32⟩ : BufTy).Contents (Elt F) → (⟨S_, .f32⟩ : BufTy).Contents (Elt F) → (⟨S16384, .f32⟩ : BufTy).Contents (Elt F)),
    unary main_call0_v7 main_call0_v8 ((broadcastInDim S16384x1 ![0] bcast_S16384_S16384x1_0) : (⟨S16384, .f32⟩ : BufTy).Contents (Elt F) → (⟨S16384x1, .f32⟩ : BufTy).Contents (Elt F)),
    unary main_call0_v8 main_call0_v9 (Host.log : (⟨S16384x1, .f32⟩ : BufTy).Contents (Elt F) → (⟨S16384x1, .f32⟩ : BufTy).Contents (Elt F)),
    unary main_call0_v9 main_call0_v10 ((broadcastInDim S16384x4096 ![0, 1] bcast_S16384x1_S16384x4096_0_1) : (⟨S16384x1, .f32⟩ : BufTy).Contents (Elt F) → (⟨S16384x4096, .f32⟩ : BufTy).Contents (Elt F)),
    binary main_call0_v5 main_call0_v10 main_v0 (subf : (⟨S16384x4096, .f32⟩ : BufTy).Contents (Elt F) → (⟨S16384x4096, .f32⟩ : BufTy).Contents (Elt F) → (⟨S16384x4096, .f32⟩ : BufTy).Contents (Elt F)),
    unary main_arg2 main_v1 (broadcastInDim S16384x1 ![0] bcast_S16384_S16384x1_0 : (⟨S16384, .i32⟩ : BufTy).Contents (Elt F) → (⟨S16384x1, .i32⟩ : BufTy).Contents (Elt F)),
    nullary main_call1_c (constantI S_ 32 0#32 : (⟨S_, .i32⟩ : BufTy).Contents (Elt F)),
    unary main_call1_c main_call1_v0 ((broadcastInDim S16384x1 ![] bcast_S_S16384x1) : (⟨S_, .i32⟩ : BufTy).Contents (Elt F) → (⟨S16384x1, .i32⟩ : BufTy).Contents (Elt F)),
    binary main_v1 main_call1_v0 main_call1_v1 ((cmpi .slt) : (⟨S16384x1, .i32⟩ : BufTy).Contents (Elt F) → (⟨S16384x1, .i32⟩ : BufTy).Contents (Elt F) → (⟨S16384x1, .i1⟩ : BufTy).Contents (Elt F)),
    nullary main_call1_c_0 (constantI S_ 32 4096#32 : (⟨S_, .i32⟩ : BufTy).Contents (Elt F)),
    unary main_call1_c_0 main_call1_v2 ((broadcastInDim S16384x1 ![] bcast_S_S16384x1) : (⟨S_, .i32⟩ : BufTy).Contents (Elt F) → (⟨S16384x1, .i32⟩ : BufTy).Contents (Elt F)),
    binary main_v1 main_call1_v2 main_call1_v3 (addi : (⟨S16384x1, .i32⟩ : BufTy).Contents (Elt F) → (⟨S16384x1, .i32⟩ : BufTy).Contents (Elt F) → (⟨S16384x1, .i32⟩ : BufTy).Contents (Elt F)),
    ternary main_call1_v1 main_call1_v3 main_v1 main_call1_v4 (select : (⟨S16384x1, .i1⟩ : BufTy).Contents (Elt F) → (⟨S16384x1, .i32⟩ : BufTy).Contents (Elt F) → (⟨S16384x1, .i32⟩ : BufTy).Contents (Elt F) → (⟨S16384x1, .i32⟩ : BufTy).Contents (Elt F)),
    reshape main_call1_v4 main_call1_v5 rfl shapeCasts_S16384x1_S16384x1x1,
    nullary main_call1_c_1 (constantI S1 32 4095#32 : (⟨S1, .i32⟩ : BufTy).Contents (Elt F)),
    nullary main_call1_c_2 (constantI S_ 32 0#32 : (⟨S_, .i32⟩ : BufTy).Contents (Elt F)),
    unary main_call1_c_2 main_call1_v6 ((broadcastInDim S16384x1x1 ![] bcast_S_S16384x1x1) : (⟨S_, .i32⟩ : BufTy).Contents (Elt F) → (⟨S16384x1x1, .i32⟩ : BufTy).Contents (Elt F)),
    binary main_call1_v5 main_call1_v6 main_call1_v7 ((cmpi .sge) : (⟨S16384x1x1, .i32⟩ : BufTy).Contents (Elt F) → (⟨S16384x1x1, .i32⟩ : BufTy).Contents (Elt F) → (⟨S16384x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S16384x1x1 ![0, 1, 2] bcast_S1x1x1_S16384x1x1_0_1_2) : (⟨S1x1x1, .i32⟩ : BufTy).Contents (Elt F) → (⟨S16384x1x1, .i32⟩ : BufTy).Contents (Elt F)),
    binary main_call1_v5 main_call1_v9 main_call1_v10 ((cmpi .sle) : (⟨S16384x1x1, .i32⟩ : BufTy).Contents (Elt F) → (⟨S16384x1x1, .i32⟩ : BufTy).Contents (Elt F) → (⟨S16384x1x1, .i1⟩ : BufTy).Contents (Elt F)),
    binary main_call1_v7 main_call1_v10 main_call1_v11 (andi : (⟨S16384x1x1, .i1⟩ : BufTy).Contents (Elt F) → (⟨S16384x1x1, .i1⟩ : BufTy).Contents (Elt F) → (⟨S16384x1x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S16384x1x1_S16384x1_d2 h_S_) : (⟨S16384x1x1, .i1⟩ : BufTy).Contents (Elt F) → (⟨S_, .i1⟩ : BufTy).Contents (Elt F) → (⟨S16384x1, .i1⟩ : BufTy).Contents (Elt F)),
    binary main_v0 main_call1_v5 main_call1_v13 ((fun x i => Host.gather gather_S16384x4096_S16384x1x1_S16384x1_n_1_0_0_1_2_11 x i) : (⟨S16384x4096, .f32⟩ : BufTy).Contents (Elt F) → (⟨S16384x1x1, .i32⟩ : BufTy).Contents (Elt F) → (⟨S16384x1, .f32⟩ : BufTy).Contents (Elt F)),
    nullary main_call1_cst (constant S_ .f32 0x7FC00000#32 : (⟨S_, .f32⟩ : BufTy).Contents (Elt F)),
    unary main_call1_cst main_call1_v14 ((broadcastInDim S16384x1 ![] bcast_S_S16384x1) : (⟨S_, .f32⟩ : BufTy).Contents (Elt F) → (⟨S16384x1, .f32⟩ : BufTy).Contents (Elt F)),
    ternary main_call1_v12 main_call1_v13 main_call1_v14 main_v2 (select : (⟨S16384x1, .i1⟩ : BufTy).Contents (Elt F) → (⟨S16384x1, .f32⟩ : BufTy).Contents (Elt F) → (⟨S16384x1, .f32⟩ : BufTy).Contents (Elt F) → (⟨S16384x1, .f32⟩ : BufTy).Contents (Elt F)),
    reshape main_v2 main_v3 rfl shapeCasts_S16384x1_S16384,
    unary main_v3 main_v4 (Host.negf : (⟨S16384, .f32⟩ : BufTy).Contents (Elt F) → (⟨S16384, .f32⟩ : BufTy).Contents (Elt F)),
    nullary main_c (constantI S_ 32 16384#32),
    unary main_c main_call2_v0 (id : (⟨S_, .i32⟩ : BufTy).Contents (Elt F) → (⟨S_, .i32⟩ : BufTy).Contents (Elt F)),
    nullary main_call2_c (constantI S_ 32 0#32 : (⟨S_, .i32⟩ : BufTy).Contents (Elt F)),
    binary main_call2_v0 main_call2_c main_call2_v1 ((cmpi .eq) : (⟨S_, .i32⟩ : BufTy).Contents (Elt F) → (⟨S_, .i32⟩ : BufTy).Contents (Elt F) → (⟨S_, .i1⟩ : BufTy).Contents (Elt F)),
    nullary main_call2_c_0 (constantI S_ 32 1#32 : (⟨S_, .i32⟩ : BufTy).Contents (Elt F)),
    ternary main_call2_v1 main_call2_c_0 main_call2_v0 main_call2_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call2_v2 main_call2_v3 ((broadcastInDim S16384 ![] bcast_S_S16384) : (⟨S_, .i32⟩ : BufTy).Contents (Elt F) → (⟨S16384, .i32⟩ : BufTy).Contents (Elt F)),
    binary main_arg3 main_call2_v3 main_call2_v4 (Host.remsi : (⟨S16384, .i32⟩ : BufTy).Contents (Elt F) → (⟨S16384, .i32⟩ : BufTy).Contents (Elt F) → (⟨S16384, .i32⟩ : BufTy).Contents (Elt F)),
    nullary main_call2_c_1 (constantI S_ 32 0#32 : (⟨S_, .i32⟩ : BufTy).Contents (Elt F)),
    unary main_call2_c_1 main_call2_v5 ((broadcastInDim S16384 ![] bcast_S_S16384) : (⟨S_, .i32⟩ : BufTy).Contents (Elt F) → (⟨S16384, .i32⟩ : BufTy).Contents (Elt F)),
    binary main_call2_v4 main_call2_v5 main_call2_v6 ((cmpi .ne) : (⟨S16384, .i32⟩ : BufTy).Contents (Elt F) → (⟨S16384, .i32⟩ : BufTy).Contents (Elt F) → (⟨S16384, .i1⟩ : BufTy).Contents (Elt F)),
    nullary main_call2_c_2 (constantI S_ 32 0#32 : (⟨S_, .i32⟩ : BufTy).Contents (Elt F)),
    unary main_call2_c_2 main_call2_v7 ((broadcastInDim S16384 ![] bcast_S_S16384) : (⟨S_, .i32⟩ : BufTy).Contents (Elt F) → (⟨S16384, .i32⟩ : BufTy).Contents (Elt F)),
    binary main_call2_v4 main_call2_v7 main_call2_v8 ((cmpi .slt) : (⟨S16384, .i32⟩ : BufTy).Contents (Elt F) → (⟨S16384, .i32⟩ : BufTy).Contents (Elt F) → (⟨S16384, .i1⟩ : BufTy).Contents (Elt F)),
    nullary main_call2_c_3 (constantI S_ 32 0#32 : (⟨S_, .i32⟩ : BufTy).Contents (Elt F)),
    binary main_call2_v2 main_call2_c_3 main_call2_v9 ((cmpi .slt) : (⟨S_, .i32⟩ : BufTy).Contents (Elt F) → (⟨S_, .i32⟩ : BufTy).Contents (Elt F) → (⟨S_, .i1⟩ : BufTy).Contents (Elt F)),
    unary main_call2_v9 main_call2_v10 ((broadcastInDim S16384 ![] bcast_S_S16384) : (⟨S_, .i1⟩ : BufTy).Contents (Elt F) → (⟨S16384, .i1⟩ : BufTy).Contents (Elt F)),
    binary main_call2_v8 main_call2_v10 main_call2_v11 ((cmpi .ne) : (⟨S16384, .i1⟩ : BufTy).Contents (Elt F) → (⟨S16384, .i1⟩ : BufTy).Contents (Elt F) → (⟨S16384, .i1⟩ : BufTy).Contents (Elt F)),
    binary main_call2_v11 main_call2_v6 main_call2_v12 (andi : (⟨S16384, .i1⟩ : BufTy).Contents (Elt F) → (⟨S16384, .i1⟩ : BufTy).Contents (Elt F) → (⟨S16384, .i1⟩ : BufTy).Contents (Elt F)),
    unary main_call2_v2 main_call2_v13 ((broadcastInDim S16384 ![] bcast_S_S16384) : (⟨S_, .i32⟩ : BufTy).Contents (Elt F) → (⟨S16384, .i32⟩ : BufTy).Contents (Elt F)),
    binary main_call2_v4 main_call2_v13 main_call2_v14 (addi : (⟨S16384, .i32⟩ : BufTy).Contents (Elt F) → (⟨S16384, .i32⟩ : BufTy).Contents (Elt F) → (⟨S16384, .i32⟩ : BufTy).Contents (Elt F)),
    ternary main_call2_v12 main_call2_v14 main_call2_v4 main_v5 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_cst (constant S_ .f32 0x00000000#32),
    unary main_cst main_v6 (broadcastInDim S16384 ![] bcast_S_S16384 : (⟨S_, .f32⟩ : BufTy).Contents (Elt F) → (⟨S16384, .f32⟩ : BufTy).Contents (Elt F)),
    nullary main_c_0 (constantI S_ 32 0#32),
    unary main_c_0 main_v7 (broadcastInDim S16384 ![] bcast_S_S16384 : (⟨S_, .i32⟩ : BufTy).Contents (Elt F) → (⟨S16384, .i32⟩ : BufTy).Contents (Elt F)),
    binary main_arg3 main_v7 main_v8 (cmpi .slt : (⟨S16384, .i32⟩ : BufTy).Contents (Elt F) → (⟨S16384, .i32⟩ : BufTy).Contents (Elt F) → (⟨S16384, .i1⟩ : BufTy).Contents (Elt F)),
    nullary main_c_1 (constantI S_ 32 1000000#32),
    unary main_c_1 main_v9 (broadcastInDim S16384 ![] bcast_S_S16384 : (⟨S_, .i32⟩ : BufTy).Contents (Elt F) → (⟨S16384, .i32⟩ : BufTy).Contents (Elt F)),
    binary main_arg3 main_v9 main_v10 (addi : (⟨S16384, .i32⟩ : BufTy).Contents (Elt F) → (⟨S16384, .i32⟩ : BufTy).Contents (Elt F) → (⟨S16384, .i32⟩ : BufTy).Contents (Elt F)),
    ternary main_v8 main_v10 main_arg3 main_v11 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v11 main_v12 (broadcastInDim S16384x1 ![0] bcast_S16384_S16384x1_0 : (⟨S16384, .i32⟩ : BufTy).Contents (Elt F) → (⟨S16384x1, .i32⟩ : BufTy).Contents (Elt F)),
    binary main_arg1 main_v12 main_v13 ((fun x i => Host.gather gather_S1000000_S16384x1_S16384_n_0_n_n_0_1_1 x i) : (⟨S1000000, .f32⟩ : BufTy).Contents (Elt F) → (⟨S16384x1, .i32⟩ : BufTy).Contents (Elt F) → (⟨S16384, .f32⟩ : BufTy).Contents (Elt F)),
    nullary main_c_2 (constantI S_ 32 0#32),
    unary main_c_2 main_v14 (broadcastInDim S16384 ![] bcast_S_S16384 : (⟨S_, .i32⟩ : BufTy).Contents (Elt F) → (⟨S16384, .i32⟩ : BufTy).Contents (Elt F)),
    binary main_v5 main_v14 main_v15 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v16 (broadcastInDim S16384 ![] bcast_S_S16384 : (⟨S_, .i32⟩ : BufTy).Contents (Elt F) → (⟨S16384, .i32⟩ : BufTy).Contents (Elt F)),
    binary main_v5 main_v16 main_v17 (addi : (⟨S16384, .i32⟩ : BufTy).Contents (Elt F) → (⟨S16384, .i32⟩ : BufTy).Contents (Elt F) → (⟨S16384, .i32⟩ : BufTy).Contents (Elt F)),
    ternary main_v15 main_v17 main_v5 main_v18 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v18 main_v19 (broadcastInDim S16384x1 ![0] bcast_S16384_S16384x1_0 : (⟨S16384, .i32⟩ : BufTy).Contents (Elt F) → (⟨S16384x1, .i32⟩ : BufTy).Contents (Elt F)),
    ternary main_v6 main_v19 main_v13 main_v20 ((fun x i u => Host.scatter scatter_S16384_S16384x1_S16384_n_0_0_1 (fun _ b => b) x i u) : (⟨S16384, .f32⟩ : BufTy).Contents (Elt F) → (⟨S16384x1, .i32⟩ : BufTy).Contents (Elt F) → (⟨S16384, .f32⟩ : BufTy).Contents (Elt F) → (⟨S16384, .f32⟩ : BufTy).Contents (Elt F)),
    binary main_v4 main_v20 main_v21 (mulf : (⟨S16384, .f32⟩ : BufTy).Contents (Elt F) → (⟨S16384, .f32⟩ : BufTy).Contents (Elt F) → (⟨S16384, .f32⟩ : BufTy).Contents (Elt F)),
    nullary main_cst_4 (constant S_ .f32 0x00000000#32),
    binary main_v21 main_cst_4 main_v22 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_5 (constant S_ .f32 0x46800000#32),
    binary main_v22 main_cst_5 main_v23 (Host.divf : (⟨S_, .f32⟩ : BufTy).Contents (Elt F) → (⟨S_, .f32⟩ : BufTy).Contents (Elt F) → (⟨S_, .f32⟩ : BufTy).Contents (Elt F)) ]

/-- The program is that straight line. Unfolding the called functions at their calls and the call records at
    their fields, and re-associating the sequencing, leaves the same chain of steps on both sides; a called
    function's operation moves its operands and result along the equation between a buffer's type and the
    value's type, which at these buffers is the identity. All of it holds by computation. -/
theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    unary_bufs_sub .., ternary_bufs_sub .., reshape_bufs_sub .., unary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., ternary_bufs_sub .., binary_bufs_sub .., nullary_bufs_sub ..,
    binary_bufs_sub .., nullary_bufs_sub .., binary_bufs_sub ..⟩

end Ops

/-! ## The fold at the result and at the arguments -/

/-- The label column's reshape writes the column's elements under the shape with a unit index axis. -/
theorem reshape_idx_result (V : Valuation τ sig (Elt Ideal)) :
    (reshape (τ := τ) (Val := Elt Ideal) main_call1_v4 main_call1_v5 rfl shapeCasts_S16384x1_S16384x1x1).result V
        (no_index (Proc.devRef .tc main_call1_v5))
      = shapeCast S16384x1x1 (V (Proc.devRef .tc main_call1_v4)) shapeCasts_S16384x1_S16384x1x1 :=
  (reshape_result' _ _ _ _ V).trans rfl

/-- The gathered column's reshape writes its elements as a vector. -/
theorem reshape_col_result (V : Valuation τ sig (Elt Ideal)) :
    (reshape (τ := τ) (Val := Elt Ideal) main_v2 main_v3 rfl shapeCasts_S16384x1_S16384).result V
        (no_index (Proc.devRef .tc main_v3))
      = shapeCast S16384 (V (Proc.devRef .tc main_v2)) shapeCasts_S16384x1_S16384 :=
  (reshape_result' _ _ _ _ V).trans rfl

/-- The fold of the operations at the result buffer is the quotient of the composed sum by 16384: each
    operation's result is rewritten at its own buffer to its function's value and passed over at every other
    buffer, which leaves the operations composed; the composed terms' definitions unfolded are that term. -/
theorem out_eq (V : Valuation τ sig (Elt Ideal)) :
    after (ops (F := Ideal)) V (main_v23 : DevRef τ sig)
      = Host.divf (F := Ideal)
          (RefTerm.refSum (V (main_arg0 : DevRef τ sig)) (V (main_arg2 : DevRef τ sig))
            (RefTerm.wts (V (main_arg1 : DevRef τ sig)) (V (main_arg3 : DevRef τ sig))))
          (constant S_ .f32 0x46800000#32) := by
  simp (disch := decide) only [after_cons, after_nil, nullary_result', unary_result', binary_result', ternary_result',
    reshape_idx_result, reshape_col_result,
    nullary_result_ne', unary_result_ne', binary_result_ne', ternary_result_ne', reshape_result_ne']
  simp only [RefTerm.refSum, RefTerm.wts, RefTerm.wrapIdx, RefTerm.remainder, RefTerm.remFix, RefTerm.remDiv,
    RefTerm.take, RefTerm.takeSel, RefTerm.takeIdx, RefTerm.lsm, RefTerm.lsmShift]

/-- No operation writes an argument. -/
theorem arg0_eq (V : Valuation τ sig (Elt Ideal)) :
    after (ops (F := Ideal)) V (main_arg0 : DevRef τ sig) = V (main_arg0 : DevRef τ sig) := by after_results_simp
theorem arg1_eq (V : Valuation τ sig (Elt Ideal)) :
    after (ops (F := Ideal)) V (main_arg1 : DevRef τ sig) = V (main_arg1 : DevRef τ sig) := by after_results_simp
theorem arg2_eq (V : Valuation τ sig (Elt Ideal)) :
    after (ops (F := Ideal)) V (main_arg2 : DevRef τ sig) = V (main_arg2 : DevRef τ sig) := by after_results_simp
theorem arg3_eq (V : Valuation τ sig (Elt Ideal)) :
    after (ops (F := Ideal)) V (main_arg3 : DevRef τ sig) = V (main_arg3 : DevRef τ sig) := by after_results_simp

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v23)
          = Host.divf (F := Ideal)
              (RefTerm.refSum (m ((c.tc : Thread nD τ).loc main_arg0)) (m ((c.tc : Thread nD τ).loc main_arg2))
                (RefTerm.wts (m ((c.tc : Thread nD τ).loc main_arg1)) (m ((c.tc : Thread nD τ).loc main_arg3))))
              (constant S_ .f32 0x46800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v23).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.RefValue.lean ====
/-
  The reference's sum read as a sum over the rows of the specification's per-row loss.

  Each stage of the reference is read at an index: the row maximum (a maximum-reduce from minus infinity), the two-step
  broadcast of a per-row value over its row, the row sum of exponentials and its logarithm, the label stage (a label
  that is a class index is neither wrapped nor rejected by the range test), the gather along the class axis with the
  row as a batching axis (it reads the row at its label), the cast of the gathered column to a vector, the negation,
  the product with the weights, and the final sum over the rows.
-/
import proofs.«427596_j76922864272129_2_alg».proof.Proof.RefTerm
import proofs.«427596_j76922864272129_2_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section

namespace Cert.ReferenceIdeal.RefValue

open Idealize.ShloMosaic Idealize.ShloMosaic.ValueIdx Cert.ReferenceIdeal Cert.ReferenceIdeal.Gen

/-! ## Broadcasts and shape casts read at an index -/

/-- A broadcast scalar reads the scalar everywhere. -/
theorem bcast0_apply {α : Type} {t : Shape} (dims : Fin S_.rank → Fin t.rank) (h : S_.BroadcastsInDim t dims)
    (c : S_.Idx → α) (j : t.Idx) : broadcastInDim t dims h c j = c ix0 := by
  unfold broadcastInDim
  exact congrArg c (funext fun a => a.elim0)

/-- A vector as a column reads, at row i, the vector at i. -/
theorem bcast_col_apply {α : Type} (h : S16384.BroadcastsInDim S16384x1 (![0] : Fin 1 → Fin S16384x1.rank))
    (v : S16384.Idx → α) (i : Fin 16384) (u : Fin 1) :
    broadcastInDim S16384x1 ![0] h v (ix2 i u) = v (ix1 i) := by
  unfold broadcastInDim
  congr 1
  funext a
  match a with
  | ⟨0, _⟩ =>
    apply Fin.ext
    split
    · next h1 => change (16384 : ℕ) = 1 at h1; omega
    · rfl

/-- A column laid along the rows of the rectangle reads, at (i, j), the column at row i. -/
theorem bcast_rect_apply {α : Type} (h : S16384x1.BroadcastsInDim S16384x4096 (![0, 1] : Fin 2 → Fin S16384x4096.rank))
    (c : S16384x1.Idx → α) (i : Fin 16384) (j : Fin 4096) :
    broadcastInDim S16384x4096 ![0, 1] h c (ix2 i j) = c (ix2 i (0 : Fin 1)) := by
  unfold broadcastInDim
  congr 1
  funext a
  match a with
  | ⟨0, _⟩ =>
    apply Fin.ext
    split
    · next h1 => change (16384 : ℕ) = 1 at h1; omega
    · rfl
  | ⟨1, _⟩ =>
    apply Fin.ext
    split
    · rfl
    · next h1 => exact absurd rfl h1

/-- The column cast to a vector reads, at i, the column at row i. -/
theorem cast_col_vec_apply {α : Type} (v : S16384x1.Idx → α) (h : S16384x1.ShapeCasts S16384) (i : Fin 16384) :
    shapeCast S16384 v h (ix1 i) = v (ix2 i (0 : Fin 1)) :=
  shapeCast_apply v h _ _ (by
    rw [Shape.rowMajor_val_two, Shape.rowMajor_val_one]
    show i.val * 1 + 0 = i.val
    omega)

/-- The column cast to a rank-3 array with two unit axes reads, at (i, 0, 0), the column at row i. -/
theorem cast_col_cube_apply {α : Type} (v : S16384x1.Idx → α) (h : S16384x1.ShapeCasts S16384x1x1) (i : Fin 16384)
    (a b : Fin 1) : shapeCast S16384x1x1 v h (ix3 i a b) = v (ix2 i (0 : Fin 1)) :=
  shapeCast_apply v h _ _ (by
    rw [Shape.rowMajor_val_two, Shape.rowMajor_val_three]
    show i.val * 1 + 0 = (i.val * 1 + a.val) * 1 + b.val
    omega)

/-! ## The reductions along a row -/

/-- The index a row's reduction inserts its coordinate into. -/
theorem lift_row (h : S16384x4096.Reduces [1] S16384) (i : Fin 16384) (k : Fin 4096) :
    h.lift (ix1 i) k = ix2 i k := by
  funext c
  match c with
  | ⟨0, _⟩ => exact Fin.ext rfl
  | ⟨1, _⟩ => exact Fin.ext rfl

/-- The pattern of minus infinity is the bottom of the extended reals. -/
theorem ofBits_neg_inf : Ideal.ofBits .f32 0xFF800000#32 = ⊥ := by simp [Ideal.ofBits, Ideal.ieee]

/-- The maximum-reduce along a row from minus infinity, then the maximum with minus infinity: the row's maximum. -/
theorem rowMax_stage (x : FVec Ideal S16384x4096 .f32) (h' : S16384x4096.ReducesTo [1] S16384) (hu : 0 < S_.numel)
    (hb : S_.BroadcastsInDim S16384 (![] : Fin 0 → Fin S16384.rank)) (i : Fin 16384) :
    maximumf (broadcastInDim S16384 ![] hb (constant (F := Ideal) S_ .f32 0xFF800000#32))
        (Host.reduce FloatOps.maximumf x (constant (F := Ideal) S_ .f32 0xFF800000#32) h' hu) (ix1 i)
      = Cert.Spec.rowMax (fun j => x (ix2 i j)) := by
  have hR : S16384x4096.Reduces [1] S16384 := by decide
  rw [maximumf_apply, bcast0_apply, constant_apply, ofBits_neg_inf, max_bot_left,
    Host.reduce_eq_fold_single FloatOps.maximumf x _ h' hR hu (ix1 i), constant_apply, ofBits_neg_inf]
  unfold Cert.Spec.rowMax
  show (Finset.univ : Finset (Fin 4096)).fold max ⊥ (fun k => x (hR.lift (ix1 i) k)) = _
  congr 1
  funext k
  exact congrArg x (lift_row hR i k)

/-- The add-reduce along a row from zero: zero plus the row's sum. -/
theorem rowSum_stage (y : FVec Ideal S16384x4096 .f32) (h' : S16384x4096.ReducesTo [1] S16384) (hu : 0 < S_.numel)
    (i : Fin 16384) :
    Host.reduceAdd (F := Ideal) y (constant (F := Ideal) S_ .f32 0x00000000#32) h' hu (ix1 i)
      = 0 + ∑ j : Fin 4096, y (ix2 i j) := by
  have hR : S16384x4096.Reduces [1] S16384 := by decide
  show Ideal.hostReduceAdd h' y (Ideal.ofBits .f32 0x00000000#32) (ix1 i) = _
  rw [Ideal.hostReduceAdd_single h' hR, Ideal.ofBits_zero_f32]
  show (0 : EReal) + ∑ k : Fin 4096, y (hR.lift (ix1 i) k) = _
  congr 1
  exact Finset.sum_congr rfl fun k _ => congrArg y (lift_row hR i k)

/-! ## The label stage: a label that is a class index passes the wrap and the range test unchanged -/

/-- An and-reduce from the bit 1 over operands that are all 1 is 1. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  obtain rfl : x = fun _ => 1#1 := funext hx
  rw [Host.reduce_eq_foldl, hinit]
  generalize (List.filter (fun i => decide (h.drop i = j)) (List.map (⇑s.rowMajor.symm) (List.finRange s.numel))) = l
  induction l with
  | nil => rfl
  | cons a l ih =>
    rw [List.foldl_cons]
    have e : IntOp.andi (1#1) (1#1) = 1#1 := by decide
    rw [e]; exact ih

/-- A word below 4096 is not negative as a signed word. -/
theorem slt_zero_of_lt {a : BitVec 32} (ha : a.toNat < 4096) : IntOp.cmpi .slt a 0#32 = 0#1 := by
  refine eq_zero_of_ne_one fun h => ?_
  have := (StableHlo.Predicate.slt_iff_toNat (a := a) (b := 0#32) (by omega) (by decide)).1 h
  simp at this

/-- A word below 4096 is at least zero as a signed word. -/
theorem sge_zero_of_lt {a : BitVec 32} (ha : a.toNat < 4096) : IntOp.cmpi .sge a 0#32 = 1#1 :=
  (StableHlo.Predicate.sge_iff_toNat (a := a) (b := 0#32) (by omega) (by decide)).2 (by simp)

/-- A word below 4096 is at most 4095 as a signed word. -/
theorem sle_4095_of_lt {a : BitVec 32} (ha : a.toNat < 4096) : IntOp.cmpi .sle a 4095#32 = 1#1 :=
  (StableHlo.Predicate.sle_iff_toNat (a := a) (b := 4095#32) (by omega) (by decide)).2 (by
    show a.toNat ≤ 4095; omega)

/-- THE GATHER along the class axis with the row as a batching axis: at row i it reads the operand at (i, the
    start index of row i), the start index read signed and clamped into 0 … 4095 — the identity on a class index. -/
theorem gather_stage [Facts₀] {α : Type} (y : S16384x4096.Idx → α) (idx : IVec S16384x1x1 32) (i : Fin 16384) (u : Fin 1)
    (t : Fin 4096) (ht : (idx (ix3 i (0 : Fin 1) (0 : Fin 1))).toNat = t.val) :
    Host.gather gather_S16384x4096_S16384x1x1_S16384x1_n_1_0_0_1_2_11 y idx (ix2 i u) = y (ix2 i t) := by
  unfold Host.gather
  congr 1
  funext a
  match a with
  | ⟨0, _⟩ =>
    apply Fin.ext
    show GatherDims.start gather_S16384x4096_S16384x1x1_S16384x1_n_1_0_0_1_2_11 (ix2 i u) idx 0
        + GatherDims.batchCoord gather_S16384x4096_S16384x1x1_S16384x1_n_1_0_0_1_2_11 (ix2 i u) 0
        + GatherDims.offCoord gather_S16384x4096_S16384x1x1_S16384x1_n_1_0_0_1_2_11 (ix2 i u) 0 = i.val
    have hb : (0 : Fin 2) ∈ GatherDims.operandBatchingDims gather_S16384x4096_S16384x1x1_S16384x1_n_1_0_0_1_2_11 :=
      List.mem_singleton.mpr rfl
    rw [GatherDims.start_batching _ _ _ _ hb,
      GatherDims.offCoord_eq_zero _ _ _ (fun h => ((GatherDims.mem_sKept _ _).1 h).2 hb), Nat.zero_add, Nat.add_zero]
    unfold GatherDims.batchCoord
    rw [dif_pos hb]
    rfl
  | ⟨1, _⟩ =>
    apply Fin.ext
    show GatherDims.start gather_S16384x4096_S16384x1x1_S16384x1_n_1_0_0_1_2_11 (ix2 i u) idx 1
        + GatherDims.batchCoord gather_S16384x4096_S16384x1x1_S16384x1_n_1_0_0_1_2_11 (ix2 i u) 1
        + GatherDims.offCoord gather_S16384x4096_S16384x1x1_S16384x1_n_1_0_0_1_2_11 (ix2 i u) 1 = t.val
    have hc : (1 : Fin 2) ∈ GatherDims.collapsedSliceDims gather_S16384x4096_S16384x1x1_S16384x1_n_1_0_0_1_2_11 :=
      List.mem_singleton.mpr rfl
    have hm : (1 : Fin 2) ∈ GatherDims.startIndexMap gather_S16384x4096_S16384x1x1_S16384x1_n_1_0_0_1_2_11 :=
      List.mem_singleton.mpr rfl
    have hnb : (1 : Fin 2) ∉ GatherDims.operandBatchingDims gather_S16384x4096_S16384x1x1_S16384x1_n_1_0_0_1_2_11 :=
      fun h => absurd (List.mem_singleton.mp h) (by decide)
    rw [GatherDims.batchCoord_eq_zero _ _ _ hnb,
      GatherDims.offCoord_eq_zero _ _ _ (fun h => ((GatherDims.mem_sKept _ _).1 h).1 hc)]
    simp only [Nat.add_zero]
    unfold GatherDims.start
    rw [dif_pos hm]
    have hsi : GatherDims.siIdx gather_S16384x4096_S16384x1x1_S16384x1_n_1_0_0_1_2_11 (ix2 i u)
        ⟨List.idxOf (1 : Fin 2) (GatherDims.startIndexMap gather_S16384x4096_S16384x1x1_S16384x1_n_1_0_0_1_2_11),
          List.idxOf_lt_length_iff.2 hm⟩ = ix3 i (0 : Fin 1) (0 : Fin 1) := by
      funext b
      apply Fin.ext
      match b with
      | ⟨0, _⟩ => rfl
      | ⟨1, _⟩ => show u.val = 0; omega
      | ⟨2, _⟩ => rfl
    rw [hsi]
    show min (idx (ix3 i (0 : Fin 1) (0 : Fin 1))).toInt.toNat (4096 - 1) = t.val
    have hlt : (idx (ix3 i (0 : Fin 1) (0 : Fin 1))).toNat < 2 ^ 31 := by have := t.isLt; omega
    rw [StableHlo.Predicate.toInt_eq_toNat_of_lt hlt, Int.toNat_natCast, ht]
    have := t.isLt
    omega

/-! ## The elementwise host operations at an index, at the extended reals -/

theorem hostExp_apply {s : Shape} {φ : FTy} (a : FVec Ideal s φ) (i : s.Idx) : Host.exp (F := Ideal) a i = Ideal.exp (a i) := rfl
theorem hostLog_apply {s : Shape} {φ : FTy} (a : FVec Ideal s φ) (i : s.Idx) : Host.log (F := Ideal) a i = Ideal.log (a i) := rfl
theorem hostNegf_apply {s : Shape} {φ : FTy} (a : FVec Ideal s φ) (i : s.Idx) : Host.negf (F := Ideal) a i = -(a i) := rfl

/-! ## The log-softmax at an index -/

/-- A score less its row's maximum. -/
theorem lsmShift_apply (x : FVec Ideal S16384x4096 .f32) (i : Fin 16384) (j : Fin 4096) :
    RefTerm.lsmShift x (ix2 i j) = x (ix2 i j) - Cert.Spec.rowMax (fun k => x (ix2 i k)) := by
  unfold RefTerm.lsmShift
  rw [subf_apply, bcast_rect_apply, bcast_col_apply, rowMax_stage]

/-- The log-softmax at (i, j): the shifted score less the logarithm of the row's sum of shifted exponentials. -/
theorem lsm_apply (x : FVec Ideal S16384x4096 .f32) (i : Fin 16384) (j : Fin 4096) :
    RefTerm.lsm x (ix2 i j)
      = (x (ix2 i j) - Cert.Spec.rowMax (fun k => x (ix2 i k))) - Cert.Spec.rowLogSum (fun k => x (ix2 i k)) := by
  unfold RefTerm.lsm
  rw [subf_apply, bcast_rect_apply, hostLog_apply, bcast_col_apply, rowSum_stage, lsmShift_apply, zero_add]
  unfold Cert.Spec.rowLogSum
  have e : (∑ k : Fin 4096, Host.exp (F := Ideal) (RefTerm.lsmShift x) (ix2 i k))
      = ∑ k : Fin 4096, Ideal.exp (x (ix2 i k) - Cert.Spec.rowMax (fun k => x (ix2 i k))) :=
    Finset.sum_congr rfl fun k _ => by rw [hostExp_apply, lsmShift_apply]
  rw [e]

/-! ## The take-along-axis at a row -/

/-- Every index of the label cube is (r, 0, 0). -/
theorem cube_idx (k : S16384x1x1.Idx) : k = ix3 (k 0) (0 : Fin 1) (0 : Fin 1) := by
  funext a
  match a with
  | ⟨0, _⟩ => rfl
  | ⟨1, _⟩ =>
    apply Fin.ext
    have h := (k ⟨1, by decide⟩).isLt
    change _ < 1 at h
    show (k ⟨1, _⟩).val = 0
    omega
  | ⟨2, _⟩ =>
    apply Fin.ext
    have h := (k ⟨2, by decide⟩).isLt
    change _ < 1 at h
    show (k ⟨2, _⟩).val = 0
    omega

/-- A label that is a class index is not wrapped. -/
theorem takeIdx_apply (a : IVec S16384x1 32) (i : Fin 16384) (ha : (a (ix2 i (0 : Fin 1))).toNat < 4096) (u v : Fin 1) :
    RefTerm.takeIdx a (ix3 i u v) = a (ix2 i (0 : Fin 1)) := by
  unfold RefTerm.takeIdx
  rw [cast_col_cube_apply, select_apply]
  have hc : cmpi .slt a (broadcastInDim S16384x1 ![] bcast_S_S16384x1 (constantI S_ 32 0#32)) (ix2 i (0 : Fin 1)) = 0#1 := by
    show IntOp.cmpi .slt (a (ix2 i (0 : Fin 1))) (broadcastInDim S16384x1 ![] bcast_S_S16384x1 (constantI S_ 32 0#32) (ix2 i (0 : Fin 1))) = 0#1
    rw [bcast0_apply]
    exact slt_zero_of_lt ha
  rw [hc, select_zero]

/-- The range test's bit at an index whose word is a class index. -/
theorem inRange_mask (idx : IVec S16384x1x1 32) (h0 : S_.BroadcastsInDim S16384x1x1 (![] : Fin 0 → Fin S16384x1x1.rank))
    (h1 : S1.BroadcastsInDim S1x1x1 (![2] : Fin 1 → Fin S1x1x1.rank))
    (h2 : S1x1x1.BroadcastsInDim S16384x1x1 (![0, 1, 2] : Fin 3 → Fin S16384x1x1.rank))
    (k : S16384x1x1.Idx) (hk : (idx k).toNat < 4096) :
    andi (cmpi .sge idx (broadcastInDim S16384x1x1 ![] h0 (constantI S_ 32 0#32)))
        (cmpi .sle idx (broadcastInDim S16384x1x1 ![0, 1, 2] h2 (broadcastInDim S1x1x1 ![2] h1 (constantI S1 32 4095#32)))) k
      = 1#1 := by
  show IntOp.andi (IntOp.cmpi .sge (idx k) (0#32)) (IntOp.cmpi .sle (idx k) (4095#32)) = 1#1
  rw [sge_zero_of_lt hk, sle_4095_of_lt hk]
  decide

/-- With every label a class index the range test passes everywhere and the gather reads the row at its label. -/
theorem takeSel_apply (y : FVec Ideal S16384x4096 .f32) (idx : IVec S16384x1x1 32)
    (hidx : ∀ r : Fin 16384, (idx (ix3 r (0 : Fin 1) (0 : Fin 1))).toNat < 4096) (i : Fin 16384) :
    RefTerm.takeSel y idx (ix2 i (0 : Fin 1)) = y (ix2 i ⟨(idx (ix3 i (0 : Fin 1) (0 : Fin 1))).toNat, hidx i⟩) := by
  have hall : ∀ k : S16384x1x1.Idx, (idx k).toNat < 4096 := fun k => by rw [cube_idx k]; exact hidx _
  unfold RefTerm.takeSel
  rw [select_apply, reduce_andi_of_all, select_one, gather_stage y idx i 0 ⟨_, hidx i⟩ rfl]
  · rfl
  · intro k; exact inRange_mask idx _ _ _ k (hall k)

/-- The outlined take-along-axis at row i. -/
theorem take_apply (y : FVec Ideal S16384x4096 .f32) (a : IVec S16384x1 32)
    (ha : ∀ r : Fin 16384, (a (ix2 r (0 : Fin 1))).toNat < 4096) (i : Fin 16384) :
    RefTerm.take y a (ix2 i (0 : Fin 1)) = y (ix2 i ⟨(a (ix2 i (0 : Fin 1))).toNat, ha i⟩) := by
  unfold RefTerm.take
  have hidx : ∀ r : Fin 16384, (RefTerm.takeIdx a (ix3 r (0 : Fin 1) (0 : Fin 1))).toNat < 4096 := fun r => by
    rw [takeIdx_apply a r (ha r)]; exact ha r
  rw [takeSel_apply y _ hidx i]
  have e : (⟨(RefTerm.takeIdx a (ix3 i (0 : Fin 1) (0 : Fin 1))).toNat, hidx i⟩ : Fin 4096) = ⟨(a (ix2 i (0 : Fin 1))).toNat, ha i⟩ :=
    Fin.ext (by show (RefTerm.takeIdx a (ix3 i (0 : Fin 1) (0 : Fin 1))).toNat = _; rw [takeIdx_apply a i (ha i)])
  rw [e]

/-! ## The sum over the rows -/

/-- The add-reduce of a vector to a scalar from zero: zero plus the sum over the rows. -/
theorem totalSum_stage (y : FVec Ideal S16384 .f32) (h' : S16384.ReducesTo [0] S_) (hu : 0 < S_.numel) (j : S_.Idx) :
    Host.reduceAdd (F := Ideal) y (constant (F := Ideal) S_ .f32 0x00000000#32) h' hu j = 0 + ∑ i : Fin 16384, y (ix1 i) := by
  show Ideal.hostReduceAdd h' y (Ideal.ofBits .f32 0x00000000#32) j = _
  rw [Ideal.hostReduceAdd_total h' (fun b => b.elim0), Ideal.ofBits_zero_f32]
  exact congrArg (fun s => (0 : EReal) + s) (Equiv.sum_comp (idxEquiv1 (n := 16384)).symm y).symm

/-- With every label a class index, the reference's sum is zero plus, over the rows, the row's loss (the
    reference's spelling) times the row's weight. -/
theorem refSum_apply (x : FVec Ideal S16384x4096 .f32) (tg : IVec S16384 32) (w : FVec Ideal S16384 .f32)
    (htg : ∀ i : Fin 16384, (tg (ix1 i)).toNat < 4096) :
    RefTerm.refSum x tg w
      = fun _ => 0 + ∑ i : Fin 16384,
          Cert.Spec.lossR (fun j => x (ix2 i j)) ⟨(tg (ix1 i)).toNat, htg i⟩ * w (ix1 i) := by
  have ha : ∀ r : Fin 16384, (broadcastInDim S16384x1 ![0] bcast_S16384_S16384x1_0 tg (ix2 r (0 : Fin 1))).toNat < 4096 :=
    fun r => by rw [bcast_col_apply]; exact htg r
  funext j
  unfold RefTerm.refSum
  rw [totalSum_stage]
  refine congrArg (fun s => (0 : EReal) + s) (Finset.sum_congr rfl fun i _ => ?_)
  rw [mulf_apply, hostNegf_apply, cast_col_vec_apply, take_apply _ _ ha i, lsm_apply]
  unfold Cert.Spec.lossR
  have e : (⟨(broadcastInDim S16384x1 ![0] bcast_S16384_S16384x1_0 tg (ix2 i (0 : Fin 1))).toNat, ha i⟩ : Fin 4096)
      = ⟨(tg (ix1 i)).toNat, htg i⟩ :=
    Fin.ext (by show (broadcastInDim S16384x1 ![0] bcast_S16384_S16384x1_0 tg (ix2 i (0 : Fin 1))).toNat = _; rw [bcast_col_apply])
  rw [e]

end Cert.ReferenceIdeal.RefValue

end
-- ==== Proof.PreFacts.lean ====
/-
  What the precondition says of the inputs.
-/
import proofs.«427596_j76922864272129_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.PreFacts

open Idealize.ShloMosaic

/-- The scalar shape has one index. -/
instance : Subsingleton Cert.Pre_finite_inputs.S_.Idx := ⟨fun a b => funext fun d => d.elim0⟩

/-- The word `0x7F800000` read as a single-precision number is plus infinity. -/
private theorem inf_f32 : Ideal.ofBits .f32 0x7F800000#32 = (⊤ : EReal) := by
  simp [Ideal.ofBits, Ideal.ieee]

/-- An extended real whose absolute value `max x (-x)` is below plus infinity is a real. -/
private theorem real_of_abs_lt_top (x : EReal) (h : max x (-x) < ⊤) : ∃ a : ℝ, x = (a : EReal) := by
  induction x using EReal.rec with
  | bot => simp at h
  | top => simp at h
  | coe r => exact ⟨r, rfl⟩

/-- A 32-bit word that is at least 0 and below 4096 as a signed number has a value below 4096. -/
private theorem toNat_lt_of_cmp (a : BitVec 32) (h1 : IntOp.cmpi .sge a 0#32 = 1#1)
    (h2 : IntOp.cmpi .slt a 4096#32 = 1#1) : a.toNat < 4096 := by
  have h1' : BitVec.ofBool ((0#32 : BitVec 32).sle a) = 1#1 := h1
  have h2' : BitVec.ofBool (a.slt 4096#32) = 1#1 := h2
  rw [StableHlo.Predicate.ofBool_eq_one_iff] at h1' h2'
  simp only [BitVec.sle, BitVec.slt, decide_eq_true_eq] at h1' h2'
  have e0 : (0#32 : BitVec 32).toInt = 0 := by decide
  have e1 : (4096#32 : BitVec 32).toInt = 4096 := by decide
  rw [e0] at h1'
  rw [e1] at h2'
  have hlt := a.isLt
  rw [BitVec.toInt_eq_toNat_cond] at h1' h2'
  split_ifs at h1' h2' <;> omega

/-- Where the precondition is all ones, every score is a real number and every label is a class index. -/
theorem of_pre (x : FVec Ideal Cert.Pre_finite_inputs.S16384x4096 .f32) (v : FVec Ideal Cert.Pre_finite_inputs.S1000000 .f32)
    (tg idx : IVec Cert.Pre_finite_inputs.S16384 32)
    (h : Cert.Pre_finite_inputs.fn (F := Ideal) x v tg idx = fun _ => 1#1) :
    (∀ i, ∃ a : ℝ, x i = (a : EReal)) ∧ (∀ i, (tg i).toNat < 4096) := by
  have h0 := congrFun h ValueIdx.ix0
  dsimp only [Cert.Pre_finite_inputs.fn, Cert.Pre_finite_inputs.fn_part1] at h0
  -- the predicate is a conjunction of four universally quantified facts
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_⟩
  · -- the first says |x i| < +inf at every index
    have e := Host.reduce_andi_all _ _ _ _ _ h1 i
    have e' : Ideal.cmp .olt (max (x i) (-(x i))) (Ideal.ofBits .f32 0x7F800000#32) = 1#1 := e
    rw [inf_f32] at e'
    simp only [Ideal.cmp] at e'
    exact real_of_abs_lt_top _ (of_decide_eq_true ((StableHlo.Predicate.ofBool_eq_one_iff _).1 e'))
  · -- the third and fourth say 0 ≤ tg i and tg i < 4096 as signed words
    have e3 := Host.reduce_andi_all _ _ _ _ _ h3 i
    have e4 := Host.reduce_andi_all _ _ _ _ _ h4 i
    exact toNat_lt_of_cmp (tg i) e3 e4

end Cert.PreFacts

end
-- ==== Proof.lean ====
/- The proof of `Cert.Claim` (proofs.«427596_j76922864272129_2_alg».proof.Defs).
   The kernel and the reference both compute the weighted mean, over 16384 rows, of a per-row cross-entropy,
   under the precondition that every score and every entry of `v` is finite and every label is a class index
   (0 ≤ label < 4096). With M a row's maximum and L the logarithm of the row's sum of exp (x_j − M), the kernel
   forms (M + L) − Σ_j [j = label] x_j and the reference −((x_label − M) − L): on a row of real numbers with the
   label in range these are the same extended real (Proof/SpecLaws.lean). The per-row weights are built by the
   same host operations in both programs. The kernel adds its rows in two groups of 32 blocks of 256 rows
   through a one-entry running sum (Proof/KernelPieces.lean, KernelAcc.lean, KernelFinal.lean, KernelRun.lean);
   the reference adds all rows at once (Proof/RefRun.lean, RefValue.lean); sums over the extended reals regroup
   freely, and both divide the sum by 16384. The frames of the two kernel programs are the generated ones; the
   reference's frame is its run with the result dropped; the ideal pass rewrote nothing. -/
import proofs.«427596_j76922864272129_2_alg».proof.Defs
import proofs.«427596_j76922864272129_2_alg».proof.Proof.Gen.Kernel
import proofs.«427596_j76922864272129_2_alg».proof.Proof.Gen.Kernel.Skeleton
import proofs.«427596_j76922864272129_2_alg».proof.Proof.Gen.Kernel.Launch
import proofs.«427596_j76922864272129_2_alg».proof.Proof.Gen.Kernel.Points
import proofs.«427596_j76922864272129_2_alg».proof.Proof.Gen.Kernel.Frame
import proofs.«427596_j76922864272129_2_alg».proof.Proof.Gen.KernelIdeal
import proofs.«427596_j76922864272129_2_alg».proof.Proof.Gen.KernelIdeal.Skeleton
import proofs.«427596_j76922864272129_2_alg».proof.Proof.Gen.KernelIdeal.Launch
import proofs.«427596_j76922864272129_2_alg».proof.Proof.Gen.KernelIdeal.Points
import proofs.«427596_j76922864272129_2_alg».proof.Proof.Gen.KernelIdeal.Frame
import proofs.«427596_j76922864272129_2_alg».proof.Proof.Gen.ReferenceIdeal
import proofs.«427596_j76922864272129_2_alg».proof.Proof.Gen.Pre_finite_inputs
import proofs.«427596_j76922864272129_2_alg».proof.Proof.KernelRun
import proofs.«427596_j76922864272129_2_alg».proof.Proof.RefRun
import proofs.«427596_j76922864272129_2_alg».proof.Proof.RefValue
import proofs.«427596_j76922864272129_2_alg».proof.Proof.SpecLaws
import proofs.«427596_j76922864272129_2_alg».proof.Proof.PreFacts
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end at the batch's sum of (row loss × row weight) over 16384: the kernel's run gives the sum
    with the kernel's spelling of the loss, the reference's run with the reference's; under the precondition
    the two spellings agree row by row, and the weights are one term. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3⟩ := hagree c
  rw [e0, e1, e2, e3]
  obtain ⟨hfin, htg⟩ := Cert.PreFacts.of_pre _ _ _ _ (hpre c)
  rw [Cert.ReferenceIdeal.RefValue.refSum_apply _ _ _ (fun i => htg (ix1 i))]
  refine congrArg (fun s : EReal => Host.divf (F := Ideal) (fun _ => s) (constant Cert.KernelIdeal.S_ .f32 0x46800000#32)) ?_
  refine congrArg (fun s : EReal => (0 : EReal) + s) ?_
  refine Finset.sum_congr rfl fun i _ => ?_
  unfold Cert.KernelIdeal.Value.term
  rw [Cert.Spec.lossK_eq_lossR _ _ (fun j => hfin (ix2 i j)) (htg (ix1 i))]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
